-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x784 : Shape := ⟨2, ![8192, 784]⟩
abbrev S8192x20 : Shape := ⟨2, ![8192, 20]⟩
abbrev S20x8192 : Shape := ⟨2, ![20, 8192]⟩
abbrev S_ : Shape := ⟨0, ![]⟩

class Facts : Prop where
  bcast_S_S8192x784 : S_.BroadcastsInDim S8192x784 (![] : Fin 0 → Fin S8192x784.rank)
  reducesTo_S8192x784_S_d0_1 : S8192x784.ReducesTo [0, 1] S_
  h_S_ : 0 < S_.numel
  bcast_S_S8192x20 : S_.BroadcastsInDim S8192x20 (![] : Fin 0 → Fin S8192x20.rank)
  reducesTo_S8192x20_S_d0_1 : S8192x20.ReducesTo [0, 1] S_
  bcast_S_S20x8192 : S_.BroadcastsInDim S20x8192 (![] : Fin 0 → Fin S20x8192.rank)
  reducesTo_S20x8192_S_d0_1 : S20x8192.ReducesTo [0, 1] S_

variable [Facts]

def fn_part1 {F : FTy → Type} [FloatOps F] (main_arg4 : FVec F S8192x784 .f32) (main_v13 : IVec S_ 1) (main_v16 : IVec S20x8192 1) : IVec S_ 1 :=
  let main_c_5 : IVec S_ 1 := constantI S_ 1 1#1
  let main_v17 : IVec S_ 1 := (fun x v => Host.reduce IntOp.andi x v reducesTo_S20x8192_S_d0_1 h_S_) main_v16 main_c_5
  let main_v18 : IVec S_ 1 := andi main_v13 main_v17
  let main_v19 : FVec F S8192x784 .f32 := Host.absf main_arg4
  let main_cst_6 : FVec F S_ .f32 := constant S_ .f32 0x7F800000#32
  let main_v20 : FVec F S8192x784 .f32 := broadcastInDim S8192x784 ![] bcast_S_S8192x784 main_cst_6
  let main_v21 : IVec S8192x784 1 := cmpf .olt main_v19 main_v20
  let main_c_7 : IVec S_ 1 := constantI S_ 1 1#1
  let main_v22 : IVec S_ 1 := (fun x v => Host.reduce IntOp.andi x v reducesTo_S8192x784_S_d0_1 h_S_) main_v21 main_c_7
  let main_v23 : IVec S_ 1 := andi main_v18 main_v22
  main_v23

def fn {F : FTy → Type} [FloatOps F] (main_arg0 : FVec F S8192x784 .f32) (main_arg1 : FVec F S8192x784 .f32) (main_arg2 : FVec F S8192x20 .f32) (main_arg3 : FVec F S20x8192 .f32) (main_arg4 : FVec F S8192x784 .f32) : IVec S_ 1 :=
  let main_v0 : FVec F S8192x784 .f32 := Host.absf main_arg0
  let main_cst : FVec F S_ .f32 := constant S_ .f32 0x7F800000#32
  let main_v1 : FVec F S8192x784 .f32 := broadcastInDim S8192x784 ![] bcast_S_S8192x784 main_cst
  let main_v2 : IVec S8192x784 1 := cmpf .olt main_v0 main_v1
  let main_c : IVec S_ 1 := constantI S_ 1 1#1
  let main_v3 : IVec S_ 1 := (fun x v => Host.reduce IntOp.andi x v reducesTo_S8192x784_S_d0_1 h_S_) main_v2 main_c
  let main_v4 : FVec F S8192x784 .f32 := Host.absf main_arg1
  let main_cst_0 : FVec F S_ .f32 := constant S_ .f32 0x7F800000#32
  let main_v5 : FVec F S8192x784 .f32 := broadcastInDim S8192x784 ![] bcast_S_S8192x784 main_cst_0
  let main_v6 : IVec S8192x784 1 := cmpf .olt main_v4 main_v5
  let main_c_1 : IVec S_ 1 := constantI S_ 1 1#1
  let main_v7 : IVec S_ 1 := (fun x v => Host.reduce IntOp.andi x v reducesTo_S8192x784_S_d0_1 h_S_) main_v6 main_c_1
  let main_v8 : IVec S_ 1 := andi main_v3 main_v7
  let main_v9 : FVec F S8192x20 .f32 := Host.absf main_arg2
  let main_cst_2 : FVec F S_ .f32 := constant S_ .f32 0x7F800000#32
  let main_v10 : FVec F S8192x20 .f32 := broadcastInDim S8192x20 ![] bcast_S_S8192x20 main_cst_2
  let main_v11 : IVec S8192x20 1 := cmpf .olt main_v9 main_v10
  let main_c_3 : IVec S_ 1 := constantI S_ 1 1#1
  let main_v12 : IVec S_ 1 := (fun x v => Host.reduce IntOp.andi x v reducesTo_S8192x20_S_d0_1 h_S_) main_v11 main_c_3
  let main_v13 : IVec S_ 1 := andi main_v8 main_v12
  let main_v14 : FVec F S20x8192 .f32 := Host.absf main_arg3
  let main_cst_4 : FVec F S_ .f32 := constant S_ .f32 0x7F800000#32
  let main_v15 : FVec F S20x8192 .f32 := broadcastInDim S20x8192 ![] bcast_S_S20x8192 main_cst_4
  let main_v16 : IVec S20x8192 1 := cmpf .olt main_v14 main_v15
  fn_part1 (F := F) main_arg4 main_v13 main_v16
-- ==== Kernel.lean ====
abbrev S8192x784 : Shape := ⟨2, ![8192, 784]⟩
abbrev S8192x20 : Shape := ⟨2, ![8192, 20]⟩
abbrev S20x8192 : Shape := ⟨2, ![20, 8192]⟩
abbrev S512x784 : Shape := ⟨2, ![512, 784]⟩
abbrev S1024x784 : Shape := ⟨2, ![1024, 784]⟩
abbrev S20x1024 : Shape := ⟨2, ![20, 1024]⟩
abbrev S512x20 : Shape := ⟨2, ![512, 20]⟩
abbrev S512 : Shape := ⟨1, ![512]⟩
abbrev S512x1 : Shape := ⟨2, ![512, 1]⟩
abbrev S1024 : Shape := ⟨1, ![1024]⟩
abbrev S1024x1 : Shape := ⟨2, ![1024, 1]⟩
abbrev S784x1024 : Shape := ⟨2, ![784, 1024]⟩
abbrev S512x1024 : Shape := ⟨2, ![512, 1024]⟩
abbrev S1x1024 : Shape := ⟨2, ![1, 1024]⟩
abbrev S1024x20 : Shape := ⟨2, ![1024, 20]⟩

abbrev nBuf : Space → Nat
  | .hbm => 7
  | .vmem => 16
  | .smem => 0
  | _ => 0

abbrev bufTy : (tb : Table) → Fin (tcTables nBuf tb) → BufTy
  | .hbm, ⟨0, _⟩ => ⟨S8192x784, .f32⟩
  | .hbm, ⟨1, _⟩ => ⟨S8192x784, .f32⟩
  | .hbm, ⟨2, _⟩ => ⟨S8192x20, .f32⟩
  | .hbm, ⟨3, _⟩ => ⟨S20x8192, .f32⟩
  | .hbm, ⟨4, _⟩ => ⟨S8192x784, .f32⟩
  | .hbm, ⟨5, _⟩ => ⟨S8192x20, .f32⟩
  | .hbm, ⟨6, _⟩ => ⟨S8192x784, .f32⟩
  | .local _ .vmem, ⟨0, _⟩ => ⟨S512x784, .f32⟩
  | .local _ .vmem, ⟨1, _⟩ => ⟨S512x784, .f32⟩
  | .local _ .vmem, ⟨2, _⟩ => ⟨S1024x784, .f32⟩
  | .local _ .vmem, ⟨3, _⟩ => ⟨S1024x784, .f32⟩
  | .local _ .vmem, ⟨4, _⟩ => ⟨S20x1024, .f32⟩
  | .local _ .vmem, ⟨5, _⟩ => ⟨S20x1024, .f32⟩
  | .local _ .vmem, ⟨6, _⟩ => ⟨S512x20, .f32⟩
  | .local _ .vmem, ⟨7, _⟩ => ⟨S512x20, .f32⟩
  | .local _ .vmem, ⟨8, _⟩ => ⟨S512x20, .f32⟩
  | .local _ .vmem, ⟨9, _⟩ => ⟨S512x20, .f32⟩
  | .local _ .vmem, ⟨10, _⟩ => ⟨S1024x20, .f32⟩
  | .local _ .vmem, ⟨11, _⟩ => ⟨S1024x20, .f32⟩
  | .local _ .vmem, ⟨12, _⟩ => ⟨S1024x784, .f32⟩
  | .local _ .vmem, ⟨13, _⟩ => ⟨S1024x784, .f32⟩
  | .local _ .vmem, ⟨14, _⟩ => ⟨S512x784, .f32⟩
  | .local _ .vmem, ⟨15, _⟩ => ⟨S512x784, .f32⟩
  | _, _ => ⟨S8192x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x784 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S20x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x20 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x784 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x784 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S512x20_S512x20_0_0 : ∀ a, (![0, 0] : Fin 2 → Nat) a + S512x20.size a ≤ S512x20.size a
  h_S512x20 : 0 < S512x20.numel
  inb_S512x784_S512x784_0_0 : ∀ a, (![0, 0] : Fin 2 → Nat) a + S512x784.size a ≤ S512x784.size a
  h_S512x784 : 0 < S512x784.numel
  inb_S1024x784_S1024x784_0_0 : ∀ a, (![0, 0] : Fin 2 → Nat) a + S1024x784.size a ≤ S1024x784.size a
  h_S1024x784 : 0 < S1024x784.numel
  reduces_S512x784_S512 : S512x784.Reduces [1] S512
  shapeCasts_S512_S512x1 : S512.ShapeCasts S512x1
  reduces_S1024x784_S1024 : S1024x784.Reduces [1] S1024
  shapeCasts_S1024_S1024x1 : S1024.ShapeCasts S1024x1
  bitsLt_bf16_f32 : FTy.bits .bf16 < FTy.bits .f32
  transposes_S1024x784_p1_0_S784x1024 : S1024x784.Transposes [1, 0] S784x1024
  transposes_S1024x1_p1_0_S1x1024 : S1024x1.Transposes [1, 0] S1x1024
  broadcasts_S512x1_S512x1024 : S512x1.Broadcasts S512x1024
  broadcasts_S1x1024_S512x1024 : S1x1024.Broadcasts S512x1024
  inb_S20x1024_S20x1024_0_0 : ∀ a, (![0, 0] : Fin 2 → Nat) a + S20x1024.size a ≤ S20x1024.size a
  h_S20x1024 : 0 < S20x1024.numel
  shapeCasts_S512x20_S512x20 : S512x20.ShapeCasts S512x20
  transposes_S20x1024_p1_0_S1024x20 : S20x1024.Transposes [1, 0] S1024x20
  inb_S1024x20_S1024x20_0_0 : ∀ a, (![0, 0] : Fin 2 → Nat) a + S1024x20.size a ≤ S1024x20.size a
  h_S1024x20 : 0 < S1024x20.numel
  reduces_S512x20_S512 : S512x20.Reduces [1] S512
  reduces_S1024x20_S1024 : S1024x20.Reduces [1] S1024
  transposes_S1024x20_p1_0_S20x1024 : S1024x20.Transposes [1, 0] S20x1024
  shapeCasts_S512x784_S512x784 : S512x784.ShapeCasts S512x784
  dot_S512x784_S784x1024_S512x1024_1_0_0_1_n_n_wf : DotDims.WF S512x784 S784x1024 S512x1024 [1] [0] [0] [1] [] []
  dot_S512x1024_S1024x20_S512x20_1_0_0_1_n_n_wf : DotDims.WF S512x1024 S1024x20 S512x20 [1] [0] [0] [1] [] []
  dot_S512x20_S20x1024_S512x1024_1_0_0_1_n_n_wf : DotDims.WF S512x20 S20x1024 S512x1024 [1] [0] [0] [1] [] []
  dot_S512x1024_S1024x784_S512x784_1_0_0_1_n_n_wf : DotDims.WF S512x1024 S1024x784 S512x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S8192x784.size a
  hwx0_0 : ∀ i : grid0.Coords, EltTy.bits .f32 = 32 ∨ (Rect.block (s := S8192x784) S512x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x784.size a ≤ S8192x784.size a
  hwx0_1 : ∀ i : grid0.Coords, EltTy.bits .f32 = 32 ∨ (Rect.block (s := S8192x784) S1024x784.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20x1024.size a ≤ S20x8192.size a
  hwx0_2 : ∀ i : grid0.Coords, EltTy.bits .f32 = 32 ∨ (Rect.block (s := S20x8192) S20x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x20.size a ≤ S8192x20.size a
  hwx0_3 : ∀ i : grid0.Coords, EltTy.bits .f32 = 32 ∨ (Rect.block (s := S8192x20) S512x20.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x20.size a ≤ S8192x20.size a
  hwx1_0 : ∀ i : grid1.Coords, EltTy.bits .f32 = 32 ∨ (Rect.block (s := S8192x20) S512x20.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x20.size a ≤ S8192x20.size a
  hwx1_1 : ∀ i : grid1.Coords, EltTy.bits .f32 = 32 ∨ (Rect.block (s := S8192x20) S1024x20.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x784.size a ≤ S8192x784.size a
  hwx1_2 : ∀ i : grid1.Coords, EltTy.bits .f32 = 32 ∨ (Rect.block (s := S8192x784) S1024x784.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x784.size a ≤ S8192x784.size a
  hwx1_3 : ∀ i : grid1.Coords, EltTy.bits .f32 = 32 ∨ (Rect.block (s := S8192x784) S512x784.size (cc1_transform_3 i) (hinb1_3 i)).WholeWords (EltTy.packing .f32)

variable [Facts₀]

def dot_S512x784_S784x1024_S512x1024_1_0_0_1_n_n : DotDims S512x784 S784x1024 S512x1024 where
  lhsContracting := [1]
  rhsContracting := [0]
  lhsNonContracting := [0]
  rhsNonContracting := [1]
  lhsBatch := []
  rhsBatch := []
  wf := dot_S512x784_S784x1024_S512x1024_1_0_0_1_n_n_wf
def dot_S512x1024_S1024x20_S512x20_1_0_0_1_n_n : DotDims S512x1024 S1024x20 S512x20 where
  lhsContracting := [1]
  rhsContracting := [0]
  lhsNonContracting := [0]
  rhsNonContracting := [1]
  lhsBatch := []
  rhsBatch := []
  wf := dot_S512x1024_S1024x20_S512x20_1_0_0_1_n_n_wf
def dot_S512x20_S20x1024_S512x1024_1_0_0_1_n_n : DotDims S512x20 S20x1024 S512x1024 where
  lhsContracting := [1]
  rhsContracting := [0]
  lhsNonContracting := [0]
  rhsNonContracting := [1]
  lhsBatch := []
  rhsBatch := []
  wf := dot_S512x20_S20x1024_S512x1024_1_0_0_1_n_n_wf
def dot_S512x1024_S1024x784_S512x784_1_0_0_1_n_n : DotDims S512x1024 S1024x784 S512x784 where
  lhsContracting := [1]
  rhsContracting := [0]
  lhsNonContracting := [0]
  rhsNonContracting := [1]
  lhsBatch := []
  rhsBatch := []
  wf := dot_S512x1024_S1024x784_S512x784_1_0_0_1_n_n_wf

abbrev win0_0 : Pipeline.Window sig grid0 :=
  Pipeline.Window.ofSpec (Memref.whole main_arg0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x784.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S20x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x20.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S512x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x20.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024x784.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x784.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x784 : Shape := ⟨2, ![8192, 784]⟩
abbrev S8192x20 : Shape := ⟨2, ![8192, 20]⟩
abbrev S20x8192 : Shape := ⟨2, ![20, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S784x8192 : Shape := ⟨2, ![784, 8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x784, .f32⟩
  | .hbm, ⟨1, _⟩ => ⟨S8192x784, .f32⟩
  | .hbm, ⟨2, _⟩ => ⟨S8192x20, .f32⟩
  | .hbm, ⟨3, _⟩ => ⟨S20x8192, .f32⟩
  | .hbm, ⟨4, _⟩ => ⟨S8192x784, .f32⟩
  | .hbm, ⟨5, _⟩ => ⟨S8192x784, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x784, .f32⟩
  | .hbm, ⟨10, _⟩ => ⟨S_, .f32⟩
  | .hbm, ⟨11, _⟩ => ⟨S8192, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S784x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x20, .f32⟩
  | .hbm, ⟨31, _⟩ => ⟨S8192x20, .f32⟩
  | .hbm, ⟨32, _⟩ => ⟨S8192x20, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x20, .f32⟩
  | .hbm, ⟨37, _⟩ => ⟨S_, .f32⟩
  | .hbm, ⟨38, _⟩ => ⟨S8192, .f32⟩
  | .hbm, ⟨39, _⟩ => ⟨S1x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S20x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S8192x784, .f32⟩
  | _, _ => ⟨S8192x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  reducesTo_S8192x784_S8192_d1 : S8192x784.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x784_S784x8192_1_0 : S8192x784.Transposes [1, 0] S784x8192
  bcast_S_S8192x8192 : S_.BroadcastsInDim S8192x8192 (![] : Fin 0 → Fin S8192x8192.rank)
  transposes_S20x8192_S8192x20_1_0 : S20x8192.Transposes [1, 0] S8192x20
  reducesTo_S8192x20_S8192_d1 : S8192x20.ReducesTo [1] S8192
  transposes_S8192x20_S20x8192_1_0 : S8192x20.Transposes [1, 0] S20x8192
  dot_S8192x784_S784x8192_S8192x8192_1_0_0_1_n_n_wf : DotDims.WF S8192x784 S784x8192 S8192x8192 [1] [0] [0] [1] [] []
  dot_S8192x8192_S8192x20_S8192x20_1_0_0_1_n_n_wf : DotDims.WF S8192x8192 S8192x20 S8192x20 [1] [0] [0] [1] [] []
  dot_S8192x20_S20x8192_S8192x8192_1_0_0_1_n_n_wf : DotDims.WF S8192x20 S20x8192 S8192x8192 [1] [0] [0] [1] [] []
  dot_S8192x8192_S8192x784_S8192x784_1_0_0_1_n_n_wf : DotDims.WF S8192x8192 S8192x784 S8192x784 [1] [0] [0] [1] [] []

variable [Facts₀]

def dot_S8192x784_S784x8192_S8192x8192_1_0_0_1_n_n : DotDims S8192x784 S784x8192 S8192x8192 where
  lhsContracting := [1]
  rhsContracting := [0]
  lhsNonContracting := [0]
  rhsNonContracting := [1]
  lhsBatch := []
  rhsBatch := []
  wf := dot_S8192x784_S784x8192_S8192x8192_1_0_0_1_n_n_wf
def dot_S8192x8192_S8192x20_S8192x20_1_0_0_1_n_n : DotDims S8192x8192 S8192x20 S8192x20 where
  lhsContracting := [1]
  rhsContracting := [0]
  lhsNonContracting := [0]
  rhsNonContracting := [1]
  lhsBatch := []
  rhsBatch := []
  wf := dot_S8192x8192_S8192x20_S8192x20_1_0_0_1_n_n_wf
def dot_S8192x20_S20x8192_S8192x8192_1_0_0_1_n_n : DotDims S8192x20 S20x8192 S8192x8192 where
  lhsContracting := [1]
  rhsContracting := [0]
  lhsNonContracting := [0]
  rhsNonContracting := [1]
  lhsBatch := []
  rhsBatch := []
  wf := dot_S8192x20_S20x8192_S8192x8192_1_0_0_1_n_n_wf
def dot_S8192x8192_S8192x784_S8192x784_1_0_0_1_n_n : DotDims S8192x8192 S8192x784 S8192x784 where
  lhsContracting := [1]
  rhsContracting := [0]
  lhsNonContracting := [0]
  rhsNonContracting := [1]
  lhsBatch := []
  rhsBatch := []
  wf := dot_S8192x8192_S8192x784_S8192x784_1_0_0_1_n_n_wf

class Facts : Prop extends Facts₀ where

variable [Facts]
-- ==== Proof.Spec.lean ====
/-
  The mathematics both programs compute, stated once over the extended reals and over literal extents, with no program
  in sight.

  For two arrays of row vectors A : [M, d] and B : [N, d] the Gaussian kernel entry is
      gauss A B r n = exp (max ((|A r|² + |B n|²) - 2 · ⟨A r, B n⟩) 0 · (-1/2)),
  the squared norms and the inner product plain sums over the d coordinates. The encoder sends x, the encoder centres
  and the encoder weights to z (r, l) = ∑ n, gauss x ce r n · ae (l, n); the decoder sends z, the decoder centres and the
  decoder weights to out (r, f) = ∑ n, gauss z cd r n · ad (n, f). The whole map is the decoder after the encoder.

  Two facts about finite sums are proved here because both kernels lean on them: a sum over Fin N cut at a bound L
  grows, when the bound moves by B, by the sum of the next B terms (so eight blocks of 1024 make the sum over 8192);
  and the Gaussian entry of two row blocks is the entry of the whole arrays at the shifted rows.
-/
import Idealize.ShloMosaic.PureOps.Ideal
import Idealize.ShloMosaic.Lib.ValueIdx

noncomputable section

open scoped BigOperators

namespace Cert.Rbf

open Idealize.ShloMosaic Idealize.ShloMosaic.ValueIdx

/-- The three constants of the formula, as the patterns both programs spell: 2, 0 and -1/2. -/
abbrev two : EReal := Ideal.ofBits .f32 0x40000000#32
abbrev zero : EReal := Ideal.ofBits .f32 0x00000000#32
abbrev negHalf : EReal := Ideal.ofBits .f32 0xBF000000#32

/-- Squared norm of row r of A. -/
def sqn {M d : Nat} (A : FVec Ideal ⟨2, ![M, d]⟩ .f32) (r : Fin M) : EReal :=
  ∑ f : Fin d, A (ix2 r f) * A (ix2 r f)

/-- Inner product of row r of A with row n of B. -/
def cross {M N d : Nat} (A : FVec Ideal ⟨2, ![M, d]⟩ .f32) (B : FVec Ideal ⟨2, ![N, d]⟩ .f32) (r : Fin M) (n : Fin N) : EReal :=
  ∑ f : Fin d, A (ix2 r f) * B (ix2 n f)

/-- The Gaussian kernel entry of row r of A and row n of B, by the expansion of the squared distance. -/
def gauss {M N d : Nat} (A : FVec Ideal ⟨2, ![M, d]⟩ .f32) (B : FVec Ideal ⟨2, ![N, d]⟩ .f32) (r : Fin M) (n : Fin N) : EReal :=
  Ideal.exp (max ((sqn A r + sqn B n) - two * cross A B r n) zero * negHalf)

/-- One encoder term: the kernel entry times the weight of latent coordinate l at centre n. -/
def encTerm {M N d L : Nat} (x : FVec Ideal ⟨2, ![M, d]⟩ .f32) (ce : FVec Ideal ⟨2, ![N, d]⟩ .f32) (ae : FVec Ideal ⟨2, ![L, N]⟩ .f32)
    (r : Fin M) (l : Fin L) (n : Fin N) : EReal :=
  gauss x ce r n * ae (ix2 l n)

/-- One decoder term: the kernel entry times the weight of centre n at feature f. -/
def decTerm {M N d D : Nat} (z : FVec Ideal ⟨2, ![M, d]⟩ .f32) (cd : FVec Ideal ⟨2, ![N, d]⟩ .f32) (ad : FVec Ideal ⟨2, ![N, D]⟩ .f32)
    (r : Fin M) (f : Fin D) (n : Fin N) : EReal :=
  gauss z cd r n * ad (ix2 n f)

/-- The encoder: z (r, l) = ∑ n, gauss x ce r n · ae (l, n). -/
def enc {M N d L : Nat} (x : FVec Ideal ⟨2, ![M, d]⟩ .f32) (ce : FVec Ideal ⟨2, ![N, d]⟩ .f32) (ae : FVec Ideal ⟨2, ![L, N]⟩ .f32) :
    FVec Ideal ⟨2, ![M, L]⟩ .f32 :=
  fun j => ∑ n : Fin N, encTerm x ce ae (j 0) (j 1) n

/-- The decoder: out (r, f) = ∑ n, gauss z cd r n · ad (n, f). -/
def dec {M N d D : Nat} (z : FVec Ideal ⟨2, ![M, d]⟩ .f32) (cd : FVec Ideal ⟨2, ![N, d]⟩ .f32) (ad : FVec Ideal ⟨2, ![N, D]⟩ .f32) :
    FVec Ideal ⟨2, ![M, D]⟩ .f32 :=
  fun j => ∑ n : Fin N, decTerm z cd ad (j 0) (j 1) n

theorem enc_apply {M N d L : Nat} (x : FVec Ideal ⟨2, ![M, d]⟩ .f32) (ce : FVec Ideal ⟨2, ![N, d]⟩ .f32) (ae : FVec Ideal ⟨2, ![L, N]⟩ .f32)
    (r : Fin M) (l : Fin L) : enc x ce ae (ix2 r l) = ∑ n : Fin N, encTerm x ce ae r l n := rfl

theorem dec_apply {M N d D : Nat} (z : FVec Ideal ⟨2, ![M, d]⟩ .f32) (cd : FVec Ideal ⟨2, ![N, d]⟩ .f32) (ad : FVec Ideal ⟨2, ![N, D]⟩ .f32)
    (r : Fin M) (f : Fin D) : dec z cd ad (ix2 r f) = ∑ n : Fin N, decTerm z cd ad r f n := rfl

/-! ## A sum over Fin N cut at a bound -/

/-- A function on Fin N continued by zero past N. -/
def ext0 {N : Nat} (g : Fin N → EReal) (i : ℕ) : EReal := if h : i < N then g ⟨i, h⟩ else 0

/-- The sum of the terms below the bound L. -/
def psum {N : Nat} (g : Fin N → EReal) (L : ℕ) : EReal := ∑ i ∈ Finset.range L, ext0 g i

theorem psum_zero {N : Nat} (g : Fin N → EReal) : psum g 0 = 0 := Finset.sum_range_zero _

/-- Moving the bound by B adds the next B terms. -/
theorem psum_add {N : Nat} (g : Fin N → EReal) (L B : ℕ) (h : L + B ≤ N) :
    psum g (L + B) = psum g L + ∑ b : Fin B, g ⟨L + b.val, by have := b.isLt; omega⟩ := by
  unfold psum
  rw [Finset.sum_range_add]
  refine congrArg (_ + ·) ?_
  rw [← Fin.sum_univ_eq_sum_range (fun i => ext0 g (L + i)) B]
  refine Finset.sum_congr rfl fun b _ => ?_
  unfold ext0
  rw [dif_pos (by have := b.isLt; omega)]

/-- At the bound N it is the whole sum. -/
theorem psum_full {N : Nat} (g : Fin N → EReal) : psum g N = ∑ n : Fin N, g n := by
  unfold psum
  rw [← Fin.sum_univ_eq_sum_range (fun i => ext0 g i) N]
  refine Finset.sum_congr rfl fun n _ => ?_
  unfold ext0
  rw [dif_pos n.isLt]

/-! ## Row blocks -/

/-- The squared norm of a row of a row block is that of the array's row. -/
theorem sqn_block {M M' d : Nat} (A : FVec Ideal ⟨2, ![M, d]⟩ .f32) (A' : FVec Ideal ⟨2, ![M', d]⟩ .f32) (r : Fin M) (r' : Fin M')
    (hA : ∀ f : Fin d, A' (ix2 r' f) = A (ix2 r f)) : sqn A' r' = sqn A r := by
  unfold sqn
  exact Finset.sum_congr rfl fun f _ => by rw [hA f]

theorem cross_block {M M' N N' d : Nat} (A : FVec Ideal ⟨2, ![M, d]⟩ .f32) (A' : FVec Ideal ⟨2, ![M', d]⟩ .f32)
    (B : FVec Ideal ⟨2, ![N, d]⟩ .f32) (B' : FVec Ideal ⟨2, ![N', d]⟩ .f32) (r : Fin M) (r' : Fin M') (n : Fin N) (n' : Fin N')
    (hA : ∀ f : Fin d, A' (ix2 r' f) = A (ix2 r f)) (hB : ∀ f : Fin d, B' (ix2 n' f) = B (ix2 n f)) :
    cross A' B' r' n' = cross A B r n := by
  unfold cross
  exact Finset.sum_congr rfl fun f _ => by rw [hA f, hB f]

/-- The Gaussian entry of two row blocks is the entry of the arrays at the rows the blocks' rows are. -/
theorem gauss_block {M M' N N' d : Nat} (A : FVec Ideal ⟨2, ![M, d]⟩ .f32) (A' : FVec Ideal ⟨2, ![M', d]⟩ .f32)
    (B : FVec Ideal ⟨2, ![N, d]⟩ .f32) (B' : FVec Ideal ⟨2, ![N', d]⟩ .f32) (r : Fin M) (r' : Fin M') (n : Fin N) (n' : Fin N')
    (hA : ∀ f : Fin d, A' (ix2 r' f) = A (ix2 r f)) (hB : ∀ f : Fin d, B' (ix2 n' f) = B (ix2 n f)) :
    gauss A' B' r' n' = gauss A B r n := by
  unfold gauss
  rw [sqn_block A A' r r' hA, sqn_block B B' n n' hB, cross_block A A' B B' r r' n n' hA hB]

end Cert.Rbf

end
-- ==== Proof.Consts.lean ====
/-
  The three float literals of the formula as the extended reals their patterns denote, unfolded once here, and the one
  law that joins the two spellings of the exponent: the reference negates and divides by 2, the kernel multiplies by
  -1/2. On the extended reals dividing by the real 2 is multiplying by 1/2, and a sign moves freely across a product,
  so the two agree at every value, the infinities included.
-/
import proofs.«172889_j29918742184170_1_alg».proof.Proof.Spec

noncomputable section

namespace Cert.Rbf

open Idealize.ShloMosaic

theorem zero_eq : zero = 0 := by
  show Ideal.ofBits .f32 0x00000000#32 = 0
  simp [Ideal.ofBits, Ideal.ieee]

theorem two_eq : two = ((2 : ℝ) : EReal) := by
  show Ideal.ofBits .f32 0x40000000#32 = _
  simp [Ideal.ofBits, Ideal.ieee, -EReal.coe_mul]; norm_num

theorem negHalf_eq : negHalf = ((-(1 / 2) : ℝ) : EReal) := by
  show Ideal.ofBits .f32 0xBF000000#32 = _
  simp [Ideal.ofBits, Ideal.ieee, -EReal.coe_mul]; norm_num

/-- Negating and halving is multiplying by -1/2. -/
theorem neg_div_two (a : EReal) : Ideal.div (-a) two = a * negHalf := by
  rw [two_eq, negHalf_eq, Ideal.div_coe (by norm_num : (2 : ℝ) ≠ 0), EReal.coe_neg, mul_neg, neg_mul]

/-- The zero the host's sums start from adds nothing. -/
theorem zero_add' (a : EReal) : zero + a = a := by rw [zero_eq, zero_add]

end Cert.Rbf

end
-- ==== Proof.EncBody.lean ====
import proofs.«172889_j29918742184170_1_alg».proof.Proof.Gen.KernelIdeal.Frame
import proofs.«172889_j29918742184170_1_alg».proof.Proof.Consts
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.EncBody

open Cert.KernelIdeal Cert.KernelIdeal.Gen Idealize.ShloMosaic.ValueIdx

/-! ## What each case leaves, for any float values: the body's one pure term over the blocks -/

variable {F : FTy → Type} [FloatOps F]

/-- The block origin (0, 0) as the constant-zero offset function. -/
theorem hz : (![0, 0] : Fin 2 → Nat) = fun _ => 0 := funext fun a => by fin_cases a <;> rfl

/-- The accumulating case, for any float values: its one covering store's payload, over the four whole buffers' loads. -/
theorem pay_B (c : Dev nD) (i : grid0.Coords) (a2 : Memref sig .tc .vmem S512x784 .f32) (h2 : a2.IsWhole)
    (a3 : Memref sig .tc .vmem S1024x784 .f32) (h3 : a3.IsWhole) (a4 : Memref sig .tc .vmem S20x1024 .f32) (h4 : a4.IsWhole)
    (a5 : Memref sig .tc .vmem S512x20 .f32) (h5 : a5.IsWhole) (hc : ¬cond0_0 i)
    (x0 : Vec F S512x784 .f32) (x1 : Vec F S1024x784 .f32) (x2 : Vec F S20x1024 .f32) (xo3 : Vec F S512x20 .f32) :
    out0_B_3 c i a2 h2 a3 h3 a4 h4 a5 h5 hc x0 x1 x2 xo3 = k0_pay2 x0 x1 x2 xo3 := by
  unfold out0_B_3
  rw [View.read_writes_eq_canon _ _ _ (cover0_B_3 c i a2 h2 a3 h3 a4 h4 a5 h5 hc x0 x1 x2 xo3)]
  unfold kernelRun0_B
  dsimp only
  sl_unfold_words
  rw [View.canon_unit_zero hz]
  simp only [View.readAt_eq_ld, h2.read_unread, h3.read_unread, h4.read_unread, h5.read_unread,
    View.ld_unit_zero (S := S512x784) hz, View.ld_unit_zero (S := S1024x784) hz, View.ld_unit_zero (S := S20x1024) hz,
    View.ld_unit_zero (S := S512x20) hz]

/-- The reset case, for any float values: the zero block is stored, read back, and the same payload stored over it. -/
theorem pay_A (c : Dev nD) (i : grid0.Coords) (a2 : Memref sig .tc .vmem S512x784 .f32) (h2 : a2.IsWhole)
    (a3 : Memref sig .tc .vmem S1024x784 .f32) (h3 : a3.IsWhole) (a4 : Memref sig .tc .vmem S20x1024 .f32) (h4 : a4.IsWhole)
    (a5 : Memref sig .tc .vmem S512x20 .f32) (h5 : a5.IsWhole) (hc : cond0_0 i)
    (x0 : Vec F S512x784 .f32) (x1 : Vec F S1024x784 .f32) (x2 : Vec F S20x1024 .f32) :
    out0_A_3 c i a2 h2 a3 h3 a4 h4 a5 h5 hc x0 x1 x2 = k0_pay2 x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S512x20) hz, View.readCov_unit_zero (S := S512x20) _ hz]
  simp only [View.readAt_eq_ld, h2.read_unread, h3.read_unread, h4.read_unread,
    View.ld_unit_zero (S := S512x784) hz, View.ld_unit_zero (S := S1024x784) hz, View.ld_unit_zero (S := S20x1024) hz,
    View.ld_unit_zero (S := S512x20) hz]

/-! ## Layout operations of the body read at an index given by coordinates -/

/-- A vector [a] cast to a column [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The squared norm of a row: the lane sum over axis 1 of a matrix's entrywise square, read at row p, is the sum of
    the squares of that row's entries. -/
theorem rowSq_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ (mulf v v) 0x00000000#32 h hφ hacc (ix1 p)
      = ∑ f : Fin b, v (ix2 p f) * v (ix2 p f) := by
  refine (Ideal.multiReduction_add_single (mulf v v) _ h hφ hacc (ix1 p)).trans ?_
  refine Finset.sum_congr rfl fun k _ => ?_
  have e : h.lift (ix1 p) k = ix2 p k := funext fun c => Fin.ext (by
    match c with
    | ⟨0, _⟩ => rfl
    | ⟨1, _⟩ => rfl)
  rw [e]
  rfl

/-! ## The two contractions read at an index: the sum over the one contracted coordinate -/

theorem lhs_gram_0 (i : S512x1024.Idx) (q : dot_S512x784_S784x1024_S512x1024_1_0_0_1_n_n.contr.Idx) :
    (dot_S512x784_S784x1024_S512x1024_1_0_0_1_n_n.lhsIdx i q 0).val = (i 0).val := by
  unfold DotDims.lhsIdx
  rw [dif_neg (show ¬(0 : Fin S512x784.rank) ∈ dot_S512x784_S784x1024_S512x1024_1_0_0_1_n_n.lhsBatch by decide), dif_pos (show (0 : Fin S512x784.rank) ∈ dot_S512x784_S784x1024_S512x1024_1_0_0_1_n_n.lhsNonContracting by decide)]
  rfl
theorem lhs_gram_1 (i : S512x1024.Idx) (q : dot_S512x784_S784x1024_S512x1024_1_0_0_1_n_n.contr.Idx) :
    (dot_S512x784_S784x1024_S512x1024_1_0_0_1_n_n.lhsIdx i q 1).val = (q ⟨0, by decide⟩).val :=
  dot_S512x784_S784x1024_S512x1024_1_0_0_1_n_n.lhsIdx_val_of_single rfl i q
theorem rhs_gram_0 (i : S512x1024.Idx) (q : dot_S512x784_S784x1024_S512x1024_1_0_0_1_n_n.contr.Idx) :
    (dot_S512x784_S784x1024_S512x1024_1_0_0_1_n_n.rhsIdx i q 0).val = (q ⟨0, by decide⟩).val :=
  dot_S512x784_S784x1024_S512x1024_1_0_0_1_n_n.rhsIdx_val_of_single rfl i q
theorem rhs_gram_1 (i : S512x1024.Idx) (q : dot_S512x784_S784x1024_S512x1024_1_0_0_1_n_n.contr.Idx) :
    (dot_S512x784_S784x1024_S512x1024_1_0_0_1_n_n.rhsIdx i q 1).val = (i 1).val := by
  unfold DotDims.rhsIdx
  rw [dif_neg (show ¬(1 : Fin S784x1024.rank) ∈ dot_S512x784_S784x1024_S512x1024_1_0_0_1_n_n.rhsBatch by decide), dif_pos (show (1 : Fin S784x1024.rank) ∈ dot_S512x784_S784x1024_S512x1024_1_0_0_1_n_n.rhsNonContracting by decide)]
  rfl

theorem gram_apply (lhs : FVec Ideal S512x784 .bf16) (rhs : FVec Ideal S784x1024 .bf16) (p : Fin 512) (q : Fin 1024) :
    matmul dot_S512x784_S784x1024_S512x1024_1_0_0_1_n_n none lhs rhs (constant (F := Ideal) S512x1024 .f32 0x00000000#32) (ix2 p q)
      = ∑ k : Fin 784, lhs (ix2 p k) * rhs (ix2 k q) := by
  refine (Ideal.matmul_constant_zero_apply dot_S512x784_S784x1024_S512x1024_1_0_0_1_n_n none lhs rhs (ix2 p q)).trans ?_
  rw [← Equiv.sum_comp (contrEquiv1 dot_S512x784_S784x1024_S512x1024_1_0_0_1_n_n 784 rfl rfl).symm]
  refine Finset.sum_congr rfl fun k _ => ?_
  have hk := contrEquiv1_symm_val dot_S512x784_S784x1024_S512x1024_1_0_0_1_n_n 784 rfl rfl k
  have el : dot_S512x784_S784x1024_S512x1024_1_0_0_1_n_n.lhsIdx (ix2 p q) ((contrEquiv1 dot_S512x784_S784x1024_S512x1024_1_0_0_1_n_n 784 rfl rfl).symm k) = ix2 p k := funext fun a => Fin.ext (by
    match a with
    | ⟨0, _⟩ => exact lhs_gram_0 _ _
    | ⟨1, _⟩ => exact (lhs_gram_1 _ _).trans hk)
  have er : dot_S512x784_S784x1024_S512x1024_1_0_0_1_n_n.rhsIdx (ix2 p q) ((contrEquiv1 dot_S512x784_S784x1024_S512x1024_1_0_0_1_n_n 784 rfl rfl).symm k) = ix2 k q := funext fun a => Fin.ext (by
    match a with
    | ⟨0, _⟩ => exact (rhs_gram_0 _ _).trans hk
    | ⟨1, _⟩ => exact rhs_gram_1 _ _)
  rw [el, er]

theorem lhs_mix_0 (i : S512x20.Idx) (q : dot_S512x1024_S1024x20_S512x20_1_0_0_1_n_n.contr.Idx) :
    (dot_S512x1024_S1024x20_S512x20_1_0_0_1_n_n.lhsIdx i q 0).val = (i 0).val := by
  unfold DotDims.lhsIdx
  rw [dif_neg (show ¬(0 : Fin S512x1024.rank) ∈ dot_S512x1024_S1024x20_S512x20_1_0_0_1_n_n.lhsBatch by decide), dif_pos (show (0 : Fin S512x1024.rank) ∈ dot_S512x1024_S1024x20_S512x20_1_0_0_1_n_n.lhsNonContracting by decide)]
  rfl
theorem lhs_mix_1 (i : S512x20.Idx) (q : dot_S512x1024_S1024x20_S512x20_1_0_0_1_n_n.contr.Idx) :
    (dot_S512x1024_S1024x20_S512x20_1_0_0_1_n_n.lhsIdx i q 1).val = (q ⟨0, by decide⟩).val :=
  dot_S512x1024_S1024x20_S512x20_1_0_0_1_n_n.lhsIdx_val_of_single rfl i q
theorem rhs_mix_0 (i : S512x20.Idx) (q : dot_S512x1024_S1024x20_S512x20_1_0_0_1_n_n.contr.Idx) :
    (dot_S512x1024_S1024x20_S512x20_1_0_0_1_n_n.rhsIdx i q 0).val = (q ⟨0, by decide⟩).val :=
  dot_S512x1024_S1024x20_S512x20_1_0_0_1_n_n.rhsIdx_val_of_single rfl i q
theorem rhs_mix_1 (i : S512x20.Idx) (q : dot_S512x1024_S1024x20_S512x20_1_0_0_1_n_n.contr.Idx) :
    (dot_S512x1024_S1024x20_S512x20_1_0_0_1_n_n.rhsIdx i q 1).val = (i 1).val := by
  unfold DotDims.rhsIdx
  rw [dif_neg (show ¬(1 : Fin S1024x20.rank) ∈ dot_S512x1024_S1024x20_S512x20_1_0_0_1_n_n.rhsBatch by decide), dif_pos (show (1 : Fin S1024x20.rank) ∈ dot_S512x1024_S1024x20_S512x20_1_0_0_1_n_n.rhsNonContracting by decide)]
  rfl

theorem mix_apply (lhs : FVec Ideal S512x1024 .bf16) (rhs : FVec Ideal S1024x20 .bf16) (p : Fin 512) (q : Fin 20) :
    matmul dot_S512x1024_S1024x20_S512x20_1_0_0_1_n_n none lhs rhs (constant (F := Ideal) S512x20 .f32 0x00000000#32) (ix2 p q)
      = ∑ k : Fin 1024, lhs (ix2 p k) * rhs (ix2 k q) := by
  refine (Ideal.matmul_constant_zero_apply dot_S512x1024_S1024x20_S512x20_1_0_0_1_n_n none lhs rhs (ix2 p q)).trans ?_
  rw [← Equiv.sum_comp (contrEquiv1 dot_S512x1024_S1024x20_S512x20_1_0_0_1_n_n 1024 rfl rfl).symm]
  refine Finset.sum_congr rfl fun k _ => ?_
  have hk := contrEquiv1_symm_val dot_S512x1024_S1024x20_S512x20_1_0_0_1_n_n 1024 rfl rfl k
  have el : dot_S512x1024_S1024x20_S512x20_1_0_0_1_n_n.lhsIdx (ix2 p q) ((contrEquiv1 dot_S512x1024_S1024x20_S512x20_1_0_0_1_n_n 1024 rfl rfl).symm k) = ix2 p k := funext fun a => Fin.ext (by
    match a with
    | ⟨0, _⟩ => exact lhs_mix_0 _ _
    | ⟨1, _⟩ => exact (lhs_mix_1 _ _).trans hk)
  have er : dot_S512x1024_S1024x20_S512x20_1_0_0_1_n_n.rhsIdx (ix2 p q) ((contrEquiv1 dot_S512x1024_S1024x20_S512x20_1_0_0_1_n_n 1024 rfl rfl).symm k) = ix2 k q := funext fun a => Fin.ext (by
    match a with
    | ⟨0, _⟩ => exact (rhs_mix_0 _ _).trans hk
    | ⟨1, _⟩ => exact rhs_mix_1 _ _)
  rw [el, er]

/-! ## The body's term at an index, at the ideal values

Row r of the data block against centre n: the squared norms are lane sums, the cross term is the first
contraction (over the 784 features, the centres transposed), their combination clipped at zero and scaled by
one half negated is exponentiated, and the second contraction (over the 1024 centres, the weights transposed)
sums those against column l of the weights, on top of what the output block held. Every format change is the
identity on extended reals. -/

theorem pay2_apply (x0 : Vec Ideal S512x784 .f32) (x1 : Vec Ideal S1024x784 .f32) (x2 : Vec Ideal S20x1024 .f32)
    (xo : Vec Ideal S512x20 .f32) (r : Fin 512) (l : Fin 20) :
    k0_pay2 (F := Ideal) x0 x1 x2 xo (ix2 r l)
      = xo (ix2 r l) + ∑ n : Fin 1024, Cert.Rbf.encTerm (M := 512) (N := 1024) (d := 784) (L := 20) x0 x1 x2 r l n := by
  unfold k0_pay2
  dsimp only
  refine (addf_apply _ _ _).trans ?_
  refine congrArg₂ (· + ·) (congrFun (shapeCast_self xo _) (ix2 r l)) ?_
  refine (mix_apply _ _ r l).trans (Finset.sum_congr rfl fun n _ => ?_)
  refine congrArg₂ (· * ·) ?_ ((transpose_ix2_apply _ _ n l).trans rfl)
  refine congrArg Ideal.exp ?_
  refine congrArg₂ (· * ·) ?_ rfl
  refine congrArg₂ max ?_ rfl
  refine congrArg₂ (· - ·) (congrArg₂ (· + ·) ?_ ?_) (congrArg₂ (· * ·) rfl ?_)
  · exact (broadcastTo_a1_ab_apply _ _ r n).trans ((shapeCast_a_a1_apply _ _ r 0).trans (rowSq_apply x0 _ _ _ r))
  · exact (broadcastTo_1b_ab_apply _ _ r n).trans ((transpose_ix2_apply _ _ (0 : Fin 1) n).trans
      ((shapeCast_a_a1_apply _ _ n 0).trans (rowSq_apply x1 _ _ _ n)))
  · exact (gram_apply _ _ r n).trans (Finset.sum_congr rfl fun f _ =>
      congrArg₂ (· * ·) rfl ((transpose_ix2_apply _ _ f n).trans rfl))

/-! ## The two cases at an index -/

/-- The reset case (first centre block): the output block ends at zero plus the block's 1024 terms. -/
theorem out_A (c : Dev nD) (i : grid0.Coords) (a2 : Memref sig .tc .vmem S512x784 .f32) (h2 : a2.IsWhole)
    (a3 : Memref sig .tc .vmem S1024x784 .f32) (h3 : a3.IsWhole) (a4 : Memref sig .tc .vmem S20x1024 .f32) (h4 : a4.IsWhole)
    (a5 : Memref sig .tc .vmem S512x20 .f32) (h5 : a5.IsWhole) (hc : cond0_0 i)
    (x0 : Vec Ideal S512x784 .f32) (x1 : Vec Ideal S1024x784 .f32) (x2 : Vec Ideal S20x1024 .f32) (r : Fin 512) (l : Fin 20) :
    out0_A_3 (F := Ideal) c i a2 h2 a3 h3 a4 h4 a5 h5 hc x0 x1 x2 (ix2 r l)
      = Cert.Rbf.zero + ∑ n : Fin 1024, Cert.Rbf.encTerm (M := 512) (N := 1024) (d := 784) (L := 20) x0 x1 x2 r l n :=
  (congrFun (pay_A c i a2 h2 a3 h3 a4 h4 a5 h5 hc x0 x1 x2) (ix2 r l)).trans
    ((pay2_apply x0 x1 x2 (k0_pay1 (F := Ideal)) r l).trans rfl)

/-- The accumulating case (a later centre block): the output block ends at what it held plus the block's 1024 terms. -/
theorem out_B (c : Dev nD) (i : grid0.Coords) (a2 : Memref sig .tc .vmem S512x784 .f32) (h2 : a2.IsWhole)
    (a3 : Memref sig .tc .vmem S1024x784 .f32) (h3 : a3.IsWhole) (a4 : Memref sig .tc .vmem S20x1024 .f32) (h4 : a4.IsWhole)
    (a5 : Memref sig .tc .vmem S512x20 .f32) (h5 : a5.IsWhole) (hc : ¬cond0_0 i)
    (x0 : Vec Ideal S512x784 .f32) (x1 : Vec Ideal S1024x784 .f32) (x2 : Vec Ideal S20x1024 .f32) (xo3 : Vec Ideal S512x20 .f32)
    (r : Fin 512) (l : Fin 20) :
    out0_B_3 (F := Ideal) c i a2 h2 a3 h3 a4 h4 a5 h5 hc x0 x1 x2 xo3 (ix2 r l)
      = xo3 (ix2 r l) + ∑ n : Fin 1024, Cert.Rbf.encTerm (M := 512) (N := 1024) (d := 784) (L := 20) x0 x1 x2 r l n :=
  (congrFun (pay_B c i a2 h2 a3 h3 a4 h4 a5 h5 hc x0 x1 x2 xo3) (ix2 r l)).trans (pay2_apply x0 x1 x2 xo3 r l)

end Cert.KernelIdeal.EncBody

end
-- ==== Proof.EncValue.lean ====
/-
  The encoder's result array after its whole grid.

  The grid is 16 row blocks of 512 rows by 8 blocks of 1024 centres, visited row block by row block. Within a row block
  the output block stays in its buffer: the first centre block resets it to zero and adds its 1024 terms, each later one
  adds its own, so after centre block k the entry (r', l) holds zero plus the terms of the centres below 1024 (k + 1) of
  the row of x that r' is. After the eighth the bound is 8192 and the entry is the whole sum over the centres, which is
  what the block written back holds; the sixteen written blocks cover the array.
-/
import proofs.«172889_j29918742184170_1_alg».proof.Proof.Gen.KernelIdeal.Frame
import proofs.«172889_j29918742184170_1_alg».proof.Proof.Consts
import proofs.«172889_j29918742184170_1_alg».proof.Proof.EncBody
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.EncValue

open Cert.KernelIdeal Cert.KernelIdeal.Gen Idealize.ShloMosaic.ValueIdx

variable (V : (c : Dev nD) → (b : Ref sig .tc) → Buf (Elt Ideal) ((c : Thread nD τ).loc b))

/-- The encoder's three operand arrays as the region finds them. -/
abbrev xs (c : Dev nD) : FVec Ideal ⟨2, ![8192, 784]⟩ .f32 := V c main_arg0
abbrev cs (c : Dev nD) : FVec Ideal ⟨2, ![8192, 784]⟩ .f32 := V c main_arg1
abbrev ws (c : Dev nD) : FVec Ideal ⟨2, ![20, 8192]⟩ .f32 := V c main_arg3

/-- Their blocks at grid point t: 512 rows of x, 1024 centres, the weights of those 1024 centres. -/
abbrev xb (c : Dev nD) (t : Fin cfg0.N) : Vec Ideal S512x784 .f32 := iblk0 V c 0 t
abbrev cb (c : Dev nD) (t : Fin cfg0.N) : Vec Ideal S1024x784 .f32 := iblk0 V c 1 t
abbrev wb (c : Dev nD) (t : Fin cfg0.N) : Vec Ideal S20x1024 .f32 := iblk0 V c 2 t

/-- Point t works on row block t / 8 and centre block t % 8. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = 0 :=
  (by decide +kernel : ∀ t : Fin grid0.N, _)

theorem t_lt (t : Fin cfg0.N) : t.val < 128 := lt_of_lt_of_eq t.isLt N_0

/-- Row r' of the x block at point t is row 512 (t / 8) + r' of x. -/
theorem xb_apply (c : Dev nD) (t : Fin cfg0.N) (r' : Fin 512) (f : Fin 784) :
    xb V c t (ix2 r' f) = xs V c (ix2 ⟨512 * (t.val / 8) + r'.val, by have := t_lt t; have := r'.isLt; omega⟩ f) := by
  obtain ⟨e0, e1, -⟩ := idx_facts t
  show iblk0 V c 0 t (ix2 r' f) = _
  unfold iblk0
  rw [View.read_apply]
  show V c main_arg0 _ = V c main_arg0 _
  refine congrArg (V c main_arg0) (funext fun a => Fin.ext ?_)
  match a with
  | ⟨0, _⟩ => show win0_0.index t (0 : Fin 2) * 512 + 1 * r'.val = 512 * (t.val / 8) + r'.val; omega
  | ⟨1, _⟩ => show win0_0.index t (1 : Fin 2) * 784 + 1 * f.val = f.val; omega

/-- Row n' of the centre block at point t is centre 1024 (t % 8) + n'. -/
theorem cb_apply (c : Dev nD) (t : Fin cfg0.N) (n' : Fin 1024) (f : Fin 784) :
    cb V c t (ix2 n' f) = cs V c (ix2 ⟨1024 * (t.val % 8) + n'.val, by have := n'.isLt; omega⟩ f) := by
  obtain ⟨-, -, e2, e3, -⟩ := idx_facts t
  show iblk0 V c 1 t (ix2 n' f) = _
  unfold iblk0
  rw [View.read_apply]
  show V c main_arg1 _ = V c main_arg1 _
  refine congrArg (V c main_arg1) (funext fun a => Fin.ext ?_)
  match a with
  | ⟨0, _⟩ => show win0_1.index t (0 : Fin 2) * 1024 + 1 * n'.val = 1024 * (t.val % 8) + n'.val; omega
  | ⟨1, _⟩ => show win0_1.index t (1 : Fin 2) * 784 + 1 * f.val = f.val; omega

/-- Column n' of the weight block at point t is the weight column of centre 1024 (t % 8) + n'. -/
theorem wb_apply (c : Dev nD) (t : Fin cfg0.N) (l : Fin 20) (n' : Fin 1024) :
    wb V c t (ix2 l n') = ws V c (ix2 l ⟨1024 * (t.val % 8) + n'.val, by have := n'.isLt; omega⟩) := by
  obtain ⟨-, -, -, -, e4, e5, -⟩ := idx_facts t
  show iblk0 V c 2 t (ix2 l n') = _
  unfold iblk0
  rw [View.read_apply]
  show V c main_arg3 _ = V c main_arg3 _
  refine congrArg (V c main_arg3) (funext fun a => Fin.ext ?_)
  match a with
  | ⟨0, _⟩ => show win0_2.index t (0 : Fin 2) * 20 + 1 * l.val = l.val; omega
  | ⟨1, _⟩ => show win0_2.index t (1 : Fin 2) * 1024 + 1 * n'.val = 1024 * (t.val % 8) + n'.val; omega

/-- The encoder's terms of row r and latent coordinate l, one per centre. -/
abbrev terms (c : Dev nD) (r : Fin 8192) (l : Fin 20) : Fin 8192 → EReal :=
  fun n => Cert.Rbf.encTerm (M := 8192) (N := 8192) (d := 784) (L := 20) (xs V c) (cs V c) (ws V c) r l n

/-- The 1024 terms the body adds at point t are the array's terms at centres 1024 (t % 8) + b, for the row the block's
    row is. -/
theorem block_terms (c : Dev nD) (t : Fin cfg0.N) (r' : Fin 512) (l : Fin 20) (R : Fin 8192)
    (hR : R.val = 512 * (t.val / 8) + r'.val) :
    ∑ n' : Fin 1024, Cert.Rbf.encTerm (M := 512) (N := 1024) (d := 784) (L := 20) (xb V c t) (cb V c t) (wb V c t) r' l n'
      = ∑ b : Fin 1024, terms V c R l ⟨1024 * (t.val % 8) + b.val, by have := b.isLt; omega⟩ := by
  obtain ⟨Rv, hRlt⟩ := R
  obtain rfl : Rv = 512 * (t.val / 8) + r'.val := hR
  refine Finset.sum_congr rfl fun n' _ => ?_
  show Cert.Rbf.gauss (xb V c t) (cb V c t) r' n' * wb V c t (ix2 l n') = Cert.Rbf.gauss (xs V c) (cs V c) _ _ * ws V c (ix2 l _)
  rw [Cert.Rbf.gauss_block (xs V c) (xb V c t) (cs V c) (cb V c t) _ r' ⟨1024 * (t.val % 8) + n'.val, by have := n'.isLt; omega⟩ n'
    (fun f => xb_apply V c t r' f) (fun f => cb_apply V c t n' f), wb_apply V c t l n']

/-- One more block of 1024 centres: the sum below 1024 (k + 1) is the sum below 1024 k plus the block's terms. -/
theorem psum_block (g : Fin 8192 → EReal) (k : ℕ) (hk : k < 8) :
    Cert.Rbf.psum g (1024 * (k + 1))
      = Cert.Rbf.psum g (1024 * k) + ∑ b : Fin 1024, g ⟨1024 * k + b.val, by have := b.isLt; omega⟩ := by
  have e := Cert.Rbf.psum_add g (1024 * k) 1024 (by omega)
  rw [show 1024 * (k + 1) = 1024 * k + 1024 from by ring]
  exact e

/-- THE RUNNING SUM. After point n the output block's entry (r', l) is zero plus the terms of the centres below
    1024 (n % 8 + 1), for the row of x the block's row r' is: the reset point starts it, every later point of the row
    block adds its 1024 terms. By induction on the point. -/
theorem outsAt_eq (c : Dev nD) : ∀ (n : ℕ) (h : n < cfg0.N) (r' : Fin 512) (l : Fin 20) (R : Fin 8192),
    R.val = 512 * (n / 8) + r'.val →
    outsAt0 V c n h (ix2 r' l) = Cert.Rbf.zero + Cert.Rbf.psum (terms V c R l) (1024 * (n % 8 + 1)) := by
  intro n
  induction n with
  | zero =>
    intro h r' l R hR
    rw [outsAt0_A V c ⟨0, h⟩ rfl,
      Cert.KernelIdeal.EncBody.out_A c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) (ms0_3 ⟨0, h⟩) (hs0_3 ⟨0, h⟩) ((hcond0_0 ⟨0, h⟩).mpr rfl)
        (iblk0 V c 0 ⟨0, h⟩) (iblk0 V c 1 ⟨0, h⟩) (iblk0 V c 2 ⟨0, h⟩) r' l,
      block_terms V c ⟨0, h⟩ r' l R hR]
    have hz : Cert.Rbf.psum (terms V c R l) (1024 * (0 % 8)) = 0 := Cert.Rbf.psum_zero _
    exact congrArg (Cert.Rbf.zero + ·) (by rw [psum_block (terms V c R l) (0 % 8) (by omega), hz, zero_add])
  | succ n ih =>
    intro h r' l R hR
    by_cases h0 : (n + 1) % 8 = 0
    · rw [outsAt0_A V c ⟨n + 1, h⟩ h0,
        Cert.KernelIdeal.EncBody.out_A c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) ((hcond0_0 ⟨n + 1, h⟩).mpr h0)
          (iblk0 V c 0 ⟨n + 1, h⟩) (iblk0 V c 1 ⟨n + 1, h⟩) (iblk0 V c 2 ⟨n + 1, h⟩) r' l,
        block_terms V c ⟨n + 1, h⟩ r' l R hR]
      have hz : Cert.Rbf.psum (terms V c R l) (1024 * ((n + 1) % 8)) = 0 := by rw [h0]; exact Cert.Rbf.psum_zero _
      exact congrArg (Cert.Rbf.zero + ·) (by rw [psum_block (terms V c R l) ((n + 1) % 8) (by omega), hz, zero_add])
    · rw [outsAt0_B V c ⟨n + 1, h⟩ h0]
      dsimp only
      rw [Cert.KernelIdeal.EncBody.out_B c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) (fun hh => h0 ((hcond0_0 ⟨n + 1, h⟩).mp hh))
          (iblk0 V c 0 ⟨n + 1, h⟩) (iblk0 V c 1 ⟨n + 1, h⟩) (iblk0 V c 2 ⟨n + 1, h⟩)
          (outsAt0 V c (n + 1 - 1) (Nat.lt_of_le_of_lt (Nat.sub_le _ _) h)) r' l,
        block_terms V c ⟨n + 1, h⟩ r' l R hR]
      have hprev : outsAt0 V c (n + 1 - 1) (Nat.lt_of_le_of_lt (Nat.sub_le _ _) h) (ix2 r' l)
          = Cert.Rbf.zero + Cert.Rbf.psum (terms V c R l) (1024 * (n % 8 + 1)) :=
        ih (Nat.lt_of_succ_lt h) r' l R (by rw [hR]; show 512 * ((n + 1) / 8) + r'.val = 512 * (n / 8) + r'.val; omega)
      rw [hprev, add_assoc]
      refine congrArg (Cert.Rbf.zero + ·) ?_
      rw [psum_block (terms V c R l) ((n + 1) % 8) (by omega),
        show Cert.Rbf.psum (terms V c R l) (1024 * (n % 8 + 1)) = Cert.Rbf.psum (terms V c R l) (1024 * ((n + 1) % 8)) from
          congrArg (Cert.Rbf.psum (terms V c R l)) (by omega)]

/-- What a flushing point (the eighth centre block of its row block) writes back is its block of the encoder's map. -/
theorem flushed_eq (c : Dev nD) (t : Fin cfg0.N) (hf : (cfg0.win 3).flush t = true) :
    (dat0 (F := Ideal) V c).flushed 3 t
      = ((cfg0.win 3).blk t).view.read (Elt Ideal) (Cert.Rbf.enc (M := 8192) (N := 8192) (d := 784) (L := 20) (xs V c) (cs V c) (ws V c)) := by
  have h7 : t.val % 8 = 7 := (flush0_3 t).mp hf
  obtain ⟨-, -, -, -, -, -, e6, e7⟩ := idx_facts t
  show (cfg0.win 3).cut (grid0.coords t) ((dat0 V c).after 3 t) = _
  rw [after0_3]
  funext j
  obtain ⟨r', l, rfl⟩ : ∃ (r' : Fin 512) (l : Fin 20), j = ix2 r' l := ⟨j 0, j 1, eq_ix2 j⟩
  have hemb : ((cfg0.win 3).blk t).view.emb (ix2 r' l)
      = (ix2 (⟨512 * (t.val / 8) + r'.val, by have := t_lt t; have := r'.isLt; omega⟩ : Fin 8192) l : (⟨2, ![8192, 20]⟩ : Shape).Idx) :=
    funext fun a => Fin.ext (by
      match a with
      | ⟨0, _⟩ => show win0_3.index t (0 : Fin 2) * 512 + 1 * r'.val = 512 * (t.val / 8) + r'.val; omega
      | ⟨1, _⟩ => show win0_3.index t (1 : Fin 2) * 20 + 1 * l.val = l.val; omega)
  show outsAt0 V c t.val t.isLt (ix2 r' l) = Cert.Rbf.enc (xs V c) (cs V c) (ws V c) (((cfg0.win 3).blk t).view.emb (ix2 r' l))
  rw [hemb, Cert.Rbf.enc_apply, outsAt_eq V c t.val t.isLt r' l ⟨512 * (t.val / 8) + r'.val, by have := t_lt t; have := r'.isLt; omega⟩ rfl,
    show 1024 * (t.val % 8 + 1) = 8192 from by omega, Cert.Rbf.psum_full, Cert.Rbf.zero_add']

/-- Every row of the result array lies in the block of the flushing point of its row block. -/
theorem cover (c : Dev nD) (i : (⟨2, ![8192, 20]⟩ : Shape).Idx) :
    ∃ t : Fin cfg0.N, (cfg0.win 3).flush t = true ∧ i ∈ ((cfg0.win 3).blk t).view.set := by
  have hi0 : (i 0).val < 8192 := idx2_lt0 i
  have hi1 : (i 1).val < 20 := idx2_lt1 i
  let t : Fin cfg0.N := ⟨8 * ((i 0).val / 512) + 7, by show _ < grid0.N; rw [N_0]; omega⟩
  have ht : t.val = 8 * ((i 0).val / 512) + 7 := rfl
  obtain ⟨-, -, -, -, -, -, e6, e7⟩ := idx_facts t
  refine ⟨t, (flush0_3 t).mpr (by rw [ht]; omega), ?_⟩
  show i ∈ ((View.whole main_v0).slice (win0_3.rect t)).set
  rw [View.set_slice_whole, Rect.mem_set_unit]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 20 ≤ (i 1).val ∧ (i 1).val < win0_3.index t (1 : Fin 2) * 20 + 20; omega

/-- The encoder's result array after its whole grid is the encoder's map of the three operand arrays as found. -/
theorem final (c : Dev nD) :
    (dat0 (F := Ideal) V c).arrAt 3 cfg0.N
      = Cert.Rbf.enc (M := 8192) (N := 8192) (d := 784) (L := 20) (V c main_arg0) (V c main_arg1) (V c main_arg3) :=
  (dat0 (F := Ideal) V c).arrAt_eq_of_cover 3 _ (flushed_eq V c) (cover c)

end Cert.KernelIdeal.EncValue

end
-- ==== Proof.DecBody.lean ====
import proofs.«172889_j29918742184170_1_alg».proof.Proof.Gen.KernelIdeal.Frame
import proofs.«172889_j29918742184170_1_alg».proof.Proof.Consts
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.DecBody

open Cert.KernelIdeal Cert.KernelIdeal.Gen Idealize.ShloMosaic.ValueIdx

/-! ## What each case leaves in the output block, as the body's arithmetic applied to the blocks

Both cases end with one store of the whole `[512, 784]` block, whose value is the body's arithmetic on the three
input blocks and on what the output block held when it was read. In the accumulating case that is the block's old
contents; in the reset case the block was overwritten with zeros just before, and the read sees those zeros. -/

section Generic
variable {F : FTy → Type} [FloatOps F]

theorem hz : (![0, 0] : Fin 2 → Nat) = fun _ => 0 := funext fun a => by fin_cases a <;> rfl

/-- The accumulating case: the one covering store holds the body's arithmetic on the input blocks and the old contents. -/
theorem out_B_eq_pay (c : Dev nD) (i : grid1.Coords) (a2 : Memref sig .tc .vmem S512x20 .f32) (h2 : a2.IsWhole)
    (a3 : Memref sig .tc .vmem S1024x20 .f32) (h3 : a3.IsWhole) (a4 : Memref sig .tc .vmem S1024x784 .f32) (h4 : a4.IsWhole)
    (a5 : Memref sig .tc .vmem S512x784 .f32) (h5 : a5.IsWhole) (hc : ¬cond1_0 i)
    (x0 : Vec F S512x20 .f32) (x1 : Vec F S1024x20 .f32) (x2 : Vec F S1024x784 .f32) (xo3 : Vec F S512x784 .f32) :
    out1_B_3 c i a2 h2 a3 h3 a4 h4 a5 h5 hc x0 x1 x2 xo3 = k1_pay2 x0 x1 x2 xo3 := by
  unfold out1_B_3
  rw [View.read_writes_eq_canon _ _ _ (cover1_B_3 c i a2 h2 a3 h3 a4 h4 a5 h5 hc x0 x1 x2 xo3)]
  unfold kernelRun1_B
  dsimp only
  sl_unfold_words
  rw [View.canon_unit_zero hz]
  simp only [View.readAt_eq_ld, h2.read_unread, h3.read_unread, h4.read_unread, h5.read_unread,
    View.ld_unit_zero (S := S512x20) hz, View.ld_unit_zero (S := S1024x20) hz, View.ld_unit_zero (S := S1024x784) hz,
    View.ld_unit_zero (S := S512x784) hz]

/-- The reset case: the zero block is stored first, the later store covers it, and the body's read of the output block
    in between sees the zero block. -/
theorem out_A_eq_pay (c : Dev nD) (i : grid1.Coords) (a2 : Memref sig .tc .vmem S512x20 .f32) (h2 : a2.IsWhole)
    (a3 : Memref sig .tc .vmem S1024x20 .f32) (h3 : a3.IsWhole) (a4 : Memref sig .tc .vmem S1024x784 .f32) (h4 : a4.IsWhole)
    (a5 : Memref sig .tc .vmem S512x784 .f32) (h5 : a5.IsWhole) (hc : cond1_0 i)
    (x0 : Vec F S512x20 .f32) (x1 : Vec F S1024x20 .f32) (x2 : Vec F S1024x784 .f32) :
    out1_A_3 c i a2 h2 a3 h3 a4 h4 a5 h5 hc x0 x1 x2 = k1_pay2 x0 x1 x2 (k1_pay1 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S512x784) hz, View.readCov_unit_zero (S := S512x784) _ hz]
  simp only [View.readAt_eq_ld, h2.read_unread, h3.read_unread, h4.read_unread,
    View.ld_unit_zero (S := S512x20) hz, View.ld_unit_zero (S := S1024x20) hz, View.ld_unit_zero (S := S1024x784) hz]

end Generic

/-! # The body's arithmetic read at an index, over the extended reals -/

/-! ## Layout operations on columns, read at an index -/

section Layout
variable {α : Type}

/-- A vector of length `a` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane sums -/

/-- The sum along the 20 features of a `[512, 20]` block, at row `r`. -/
theorem laneSum512 (v : FVec Ideal S512x20 .f32) (r : Fin 512) :
    multiReduction (F := Ideal) .add [1] S512 v 0x00000000#32 reduces_S512x20_S512 (.inl rfl) rfl (ix1 r)
      = ∑ k : Fin 20, v (ix2 r k) :=
  (Ideal.multiReduction_add_single v 0x00000000#32 reduces_S512x20_S512 (.inl rfl) rfl (ix1 r)).trans
    (Finset.sum_congr rfl fun k _ => congrArg v (funext fun a => Fin.ext (by
      match a with
      | ⟨0, _⟩ => rfl
      | ⟨1, _⟩ => rfl)))

/-- The sum along the 20 features of a `[1024, 20]` block, at row `n`. -/
theorem laneSum1024 (v : FVec Ideal S1024x20 .f32) (n : Fin 1024) :
    multiReduction (F := Ideal) .add [1] S1024 v 0x00000000#32 reduces_S1024x20_S1024 (.inl rfl) rfl (ix1 n)
      = ∑ k : Fin 20, v (ix2 n k) :=
  (Ideal.multiReduction_add_single v 0x00000000#32 reduces_S1024x20_S1024 (.inl rfl) rfl (ix1 n)).trans
    (Finset.sum_congr rfl fun k _ => congrArg v (funext fun a => Fin.ext (by
      match a with
      | ⟨0, _⟩ => rfl
      | ⟨1, _⟩ => rfl)))

/-! ## The two products -/

theorem lhs_gram_0 (i : S512x1024.Idx) (q : dot_S512x20_S20x1024_S512x1024_1_0_0_1_n_n.contr.Idx) :
    (dot_S512x20_S20x1024_S512x1024_1_0_0_1_n_n.lhsIdx i q 0).val = (i 0).val := by
  unfold DotDims.lhsIdx
  rw [dif_neg (show ¬(0 : Fin S512x20.rank) ∈ dot_S512x20_S20x1024_S512x1024_1_0_0_1_n_n.lhsBatch by decide), dif_pos (show (0 : Fin S512x20.rank) ∈ dot_S512x20_S20x1024_S512x1024_1_0_0_1_n_n.lhsNonContracting by decide)]
  rfl
theorem lhs_gram_1 (i : S512x1024.Idx) (q : dot_S512x20_S20x1024_S512x1024_1_0_0_1_n_n.contr.Idx) :
    (dot_S512x20_S20x1024_S512x1024_1_0_0_1_n_n.lhsIdx i q 1).val = (q ⟨0, by decide⟩).val :=
  dot_S512x20_S20x1024_S512x1024_1_0_0_1_n_n.lhsIdx_val_of_single rfl i q
theorem rhs_gram_0 (i : S512x1024.Idx) (q : dot_S512x20_S20x1024_S512x1024_1_0_0_1_n_n.contr.Idx) :
    (dot_S512x20_S20x1024_S512x1024_1_0_0_1_n_n.rhsIdx i q 0).val = (q ⟨0, by decide⟩).val :=
  dot_S512x20_S20x1024_S512x1024_1_0_0_1_n_n.rhsIdx_val_of_single rfl i q
theorem rhs_gram_1 (i : S512x1024.Idx) (q : dot_S512x20_S20x1024_S512x1024_1_0_0_1_n_n.contr.Idx) :
    (dot_S512x20_S20x1024_S512x1024_1_0_0_1_n_n.rhsIdx i q 1).val = (i 1).val := by
  unfold DotDims.rhsIdx
  rw [dif_neg (show ¬(1 : Fin S20x1024.rank) ∈ dot_S512x20_S20x1024_S512x1024_1_0_0_1_n_n.rhsBatch by decide), dif_pos (show (1 : Fin S20x1024.rank) ∈ dot_S512x20_S20x1024_S512x1024_1_0_0_1_n_n.rhsNonContracting by decide)]
  rfl

/-- The first product (contraction over the 20 features), into zero, at `(r, n)`. -/
theorem gram_apply (A : FVec Ideal S512x20 .bf16) (B : FVec Ideal S20x1024 .bf16) (r : Fin 512) (n : Fin 1024) :
    matmul (F := Ideal) dot_S512x20_S20x1024_S512x1024_1_0_0_1_n_n none A B (constant (F := Ideal) S512x1024 .f32 0x00000000#32) (ix2 r n)
      = ∑ k : Fin 20, A (ix2 r k) * B (ix2 k n) := by
  simp only [matmul]
  rw [Ideal.matmul_constant_zero_apply, ← Equiv.sum_comp (ValueIdx.contrEquiv1 dot_S512x20_S20x1024_S512x1024_1_0_0_1_n_n 20 rfl rfl).symm]
  refine Finset.sum_congr rfl fun k _ => ?_
  have hk := ValueIdx.contrEquiv1_symm_val dot_S512x20_S20x1024_S512x1024_1_0_0_1_n_n 20 rfl rfl k
  have el : dot_S512x20_S20x1024_S512x1024_1_0_0_1_n_n.lhsIdx (ix2 r n) ((ValueIdx.contrEquiv1 dot_S512x20_S20x1024_S512x1024_1_0_0_1_n_n 20 rfl rfl).symm k) = ix2 r k := funext fun a => Fin.ext (by
    match a with
    | ⟨0, _⟩ => exact lhs_gram_0 _ _
    | ⟨1, _⟩ => exact (lhs_gram_1 _ _).trans hk)
  have er : dot_S512x20_S20x1024_S512x1024_1_0_0_1_n_n.rhsIdx (ix2 r n) ((ValueIdx.contrEquiv1 dot_S512x20_S20x1024_S512x1024_1_0_0_1_n_n 20 rfl rfl).symm k) = ix2 k n := funext fun a => Fin.ext (by
    match a with
    | ⟨0, _⟩ => exact (rhs_gram_0 _ _).trans hk
    | ⟨1, _⟩ => exact rhs_gram_1 _ _)
  rw [el, er]

theorem lhs_mix_0 (i : S512x784.Idx) (q : dot_S512x1024_S1024x784_S512x784_1_0_0_1_n_n.contr.Idx) :
    (dot_S512x1024_S1024x784_S512x784_1_0_0_1_n_n.lhsIdx i q 0).val = (i 0).val := by
  unfold DotDims.lhsIdx
  rw [dif_neg (show ¬(0 : Fin S512x1024.rank) ∈ dot_S512x1024_S1024x784_S512x784_1_0_0_1_n_n.lhsBatch by decide), dif_pos (show (0 : Fin S512x1024.rank) ∈ dot_S512x1024_S1024x784_S512x784_1_0_0_1_n_n.lhsNonContracting by decide)]
  rfl
theorem lhs_mix_1 (i : S512x784.Idx) (q : dot_S512x1024_S1024x784_S512x784_1_0_0_1_n_n.contr.Idx) :
    (dot_S512x1024_S1024x784_S512x784_1_0_0_1_n_n.lhsIdx i q 1).val = (q ⟨0, by decide⟩).val :=
  dot_S512x1024_S1024x784_S512x784_1_0_0_1_n_n.lhsIdx_val_of_single rfl i q
theorem rhs_mix_0 (i : S512x784.Idx) (q : dot_S512x1024_S1024x784_S512x784_1_0_0_1_n_n.contr.Idx) :
    (dot_S512x1024_S1024x784_S512x784_1_0_0_1_n_n.rhsIdx i q 0).val = (q ⟨0, by decide⟩).val :=
  dot_S512x1024_S1024x784_S512x784_1_0_0_1_n_n.rhsIdx_val_of_single rfl i q
theorem rhs_mix_1 (i : S512x784.Idx) (q : dot_S512x1024_S1024x784_S512x784_1_0_0_1_n_n.contr.Idx) :
    (dot_S512x1024_S1024x784_S512x784_1_0_0_1_n_n.rhsIdx i q 1).val = (i 1).val := by
  unfold DotDims.rhsIdx
  rw [dif_neg (show ¬(1 : Fin S1024x784.rank) ∈ dot_S512x1024_S1024x784_S512x784_1_0_0_1_n_n.rhsBatch by decide), dif_pos (show (1 : Fin S1024x784.rank) ∈ dot_S512x1024_S1024x784_S512x784_1_0_0_1_n_n.rhsNonContracting by decide)]
  rfl

/-- The second product (contraction over the block's 1024 centres), into zero, at `(r, f)`. -/
theorem mix_apply (A : FVec Ideal S512x1024 .bf16) (B : FVec Ideal S1024x784 .bf16) (r : Fin 512) (f : Fin 784) :
    matmul (F := Ideal) dot_S512x1024_S1024x784_S512x784_1_0_0_1_n_n none A B (constant (F := Ideal) S512x784 .f32 0x00000000#32) (ix2 r f)
      = ∑ n : Fin 1024, A (ix2 r n) * B (ix2 n f) := by
  simp only [matmul]
  rw [Ideal.matmul_constant_zero_apply, ← Equiv.sum_comp (ValueIdx.contrEquiv1 dot_S512x1024_S1024x784_S512x784_1_0_0_1_n_n 1024 rfl rfl).symm]
  refine Finset.sum_congr rfl fun k _ => ?_
  have hk := ValueIdx.contrEquiv1_symm_val dot_S512x1024_S1024x784_S512x784_1_0_0_1_n_n 1024 rfl rfl k
  have el : dot_S512x1024_S1024x784_S512x784_1_0_0_1_n_n.lhsIdx (ix2 r f) ((ValueIdx.contrEquiv1 dot_S512x1024_S1024x784_S512x784_1_0_0_1_n_n 1024 rfl rfl).symm k) = ix2 r k := funext fun a => Fin.ext (by
    match a with
    | ⟨0, _⟩ => exact lhs_mix_0 _ _
    | ⟨1, _⟩ => exact (lhs_mix_1 _ _).trans hk)
  have er : dot_S512x1024_S1024x784_S512x784_1_0_0_1_n_n.rhsIdx (ix2 r f) ((ValueIdx.contrEquiv1 dot_S512x1024_S1024x784_S512x784_1_0_0_1_n_n 1024 rfl rfl).symm k) = ix2 k f := funext fun a => Fin.ext (by
    match a with
    | ⟨0, _⟩ => exact (rhs_mix_0 _ _).trans hk
    | ⟨1, _⟩ => exact rhs_mix_1 _ _)
  rw [el, er]

/-! ## The body's value at an index

At `(r, f)` the body adds, to what the output block held there, the product over the block's 1024 centres of the Gaussian
weight of batch row `r` against centre `n` with the decoder weight `(n, f)`. The Gaussian weight's exponent is built from
three sums over the 20 features: the row's squared norm (a lane sum, kept as a column and repeated along the centres),
the centre's squared norm (a lane sum, kept as a column, transposed to a row and repeated along the batch), and the
cross term (the batch block times the transposed centre block). The narrowing conversions before each product are the
identity on the extended reals. -/

/-- What the body stores, at `(r, f)`: the contents read there plus the block's 1024 decoder terms. -/
theorem pay2_apply (x0 : Vec Ideal S512x20 .f32) (x1 : Vec Ideal S1024x20 .f32) (x2 : Vec Ideal S1024x784 .f32)
    (xo : Vec Ideal S512x784 .f32) (r : Fin 512) (f : Fin 784) :
    k1_pay2 (F := Ideal) x0 x1 x2 xo (ix2 r f)
      = xo (ix2 r f) + ∑ n : Fin 1024, Cert.Rbf.decTerm (M := 512) (N := 1024) (d := 20) (D := 784) x0 x1 x2 r f n := by
  unfold k1_pay2
  simp only [shapeCast_self]
  refine congrArg (xo (ix2 r f) + ·) ?_
  refine (mix_apply _ _ r f).trans (Finset.sum_congr rfl fun n _ => ?_)
  unfold Cert.Rbf.decTerm Cert.Rbf.gauss
  refine congrArg (· * x2 (ix2 n f)) (congrArg Ideal.exp (congrArg (· * Cert.Rbf.negHalf) (congrArg (max · Cert.Rbf.zero) ?_)))
  refine congrArg₂ (· - ·) (congrArg₂ (· + ·) ?_ ?_) (congrArg (Cert.Rbf.two * ·) ?_)
  · -- the batch row's squared norm: lane sum, column cast, repeated along the centres
    refine (broadcastTo_a1_ab_apply _ _ r n).trans ((shapeCast_a_a1_apply _ _ r 0).trans ((laneSum512 _ r).trans ?_))
    rfl
  · -- the centre's squared norm: lane sum, column cast, transposed to a row, repeated along the batch
    refine (broadcastTo_1b_ab_apply _ _ r n).trans ((transpose_ix2_apply _ _ (0 : Fin 1) n).trans
      ((shapeCast_a_a1_apply _ _ n 0).trans ((laneSum1024 _ n).trans ?_)))
    rfl
  · -- the cross term: the batch block times the transposed centre block
    refine (gram_apply _ _ r n).trans (Finset.sum_congr rfl fun k _ => ?_)
    exact congrArg (x0 (ix2 r k) * ·) (transpose_ix2_apply _ _ k n)

/-! ## The two cases at an index -/

/-- The reset case (first centre block): the output block ends at zero plus the block's 1024 terms. -/
theorem out_A (c : Dev nD) (i : grid1.Coords) (a2 : Memref sig .tc .vmem S512x20 .f32) (h2 : a2.IsWhole)
    (a3 : Memref sig .tc .vmem S1024x20 .f32) (h3 : a3.IsWhole) (a4 : Memref sig .tc .vmem S1024x784 .f32) (h4 : a4.IsWhole)
    (a5 : Memref sig .tc .vmem S512x784 .f32) (h5 : a5.IsWhole) (hc : cond1_0 i)
    (x0 : Vec Ideal S512x20 .f32) (x1 : Vec Ideal S1024x20 .f32) (x2 : Vec Ideal S1024x784 .f32) (r : Fin 512) (f : Fin 784) :
    out1_A_3 (F := Ideal) c i a2 h2 a3 h3 a4 h4 a5 h5 hc x0 x1 x2 (ix2 r f)
      = Cert.Rbf.zero + ∑ n : Fin 1024, Cert.Rbf.decTerm (M := 512) (N := 1024) (d := 20) (D := 784) x0 x1 x2 r f n :=
  -- the zero block read at any index is the zero word
  (congrFun (out_A_eq_pay (F := Ideal) c i a2 h2 a3 h3 a4 h4 a5 h5 hc x0 x1 x2) (ix2 r f)).trans
    (pay2_apply x0 x1 x2 (k1_pay1 (F := Ideal)) r f)

/-- The accumulating case (a later centre block): the output block ends at what it held plus the block's 1024 terms. -/
theorem out_B (c : Dev nD) (i : grid1.Coords) (a2 : Memref sig .tc .vmem S512x20 .f32) (h2 : a2.IsWhole)
    (a3 : Memref sig .tc .vmem S1024x20 .f32) (h3 : a3.IsWhole) (a4 : Memref sig .tc .vmem S1024x784 .f32) (h4 : a4.IsWhole)
    (a5 : Memref sig .tc .vmem S512x784 .f32) (h5 : a5.IsWhole) (hc : ¬cond1_0 i)
    (x0 : Vec Ideal S512x20 .f32) (x1 : Vec Ideal S1024x20 .f32) (x2 : Vec Ideal S1024x784 .f32) (xo3 : Vec Ideal S512x784 .f32)
    (r : Fin 512) (f : Fin 784) :
    out1_B_3 (F := Ideal) c i a2 h2 a3 h3 a4 h4 a5 h5 hc x0 x1 x2 xo3 (ix2 r f)
      = xo3 (ix2 r f) + ∑ n : Fin 1024, Cert.Rbf.decTerm (M := 512) (N := 1024) (d := 20) (D := 784) x0 x1 x2 r f n :=
  (congrFun (out_B_eq_pay (F := Ideal) c i a2 h2 a3 h3 a4 h4 a5 h5 hc x0 x1 x2 xo3) (ix2 r f)).trans
    (pay2_apply x0 x1 x2 xo3 r f)

end Cert.KernelIdeal.DecBody

end
-- ==== Proof.DecValue.lean ====
import proofs.«172889_j29918742184170_1_alg».proof.Proof.Gen.KernelIdeal.Frame
import proofs.«172889_j29918742184170_1_alg».proof.Proof.Consts
import proofs.«172889_j29918742184170_1_alg».proof.Proof.DecBody
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.DecValue

open Cert.KernelIdeal Cert.KernelIdeal.Gen Idealize.ShloMosaic.ValueIdx

variable (V : (c : Dev nD) → (b : Ref sig .tc) → Buf (Elt Ideal) ((c : Thread nD τ).loc b))

/-- The decoder's three argument arrays as the region finds them, and their blocks at a grid point, each at its
    literal type. -/
abbrev zarr (c : Dev nD) : Vec Ideal S8192x20 .f32 := V c main_v0
abbrev cdarr (c : Dev nD) : Vec Ideal S8192x20 .f32 := V c main_arg2
abbrev adarr (c : Dev nD) : Vec Ideal S8192x784 .f32 := V c main_arg4
abbrev zblk (c : Dev nD) (t : Fin cfg1.N) : Vec Ideal S512x20 .f32 := iblk1 V c 0 t
abbrev cdblk (c : Dev nD) (t : Fin cfg1.N) : Vec Ideal S1024x20 .f32 := iblk1 V c 1 t
abbrev adblk (c : Dev nD) (t : Fin cfg1.N) : Vec Ideal S1024x784 .f32 := iblk1 V c 2 t

/-- The four windows' block indices at point t: the row block is t / 8 for the rows of z and of the result, the centre
    block is t % 8 for the centres and the weights; no window moves along its second axis. -/
theorem idx_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

/-- Row r' of z's block at point t is row 512 (t / 8) + r' of z. -/
theorem zblk_apply (c : Dev nD) (t : Fin cfg1.N) (r' : Fin 512) (k : Fin 20) (R : Fin 8192)
    (hR : R.val = 512 * (t.val / 8) + r'.val) : zblk V c t (ix2 r' k) = zarr V c (ix2 R k) := by
  obtain ⟨e0, e1, -⟩ := idx_facts t
  unfold zblk iblk1
  rw [View.read_apply]
  show V c main_v0 _ = V c main_v0 _
  congr 1
  funext a
  apply Fin.ext
  match a with
  | ⟨0, _⟩ => show win1_0.index t (0 : Fin 2) * 512 + 1 * r'.val = R.val; rw [e0, hR]; omega
  | ⟨1, _⟩ => show win1_0.index t (1 : Fin 2) * 20 + 1 * k.val = k.val; rw [e1]; omega

/-- Row n' of the centres' block at point t is row 1024 (t % 8) + n' of the decoder centres. -/
theorem cdblk_apply (c : Dev nD) (t : Fin cfg1.N) (n' : Fin 1024) (k : Fin 20) (N : Fin 8192)
    (hN : N.val = 1024 * (t.val % 8) + n'.val) : cdblk V c t (ix2 n' k) = cdarr V c (ix2 N k) := by
  obtain ⟨-, -, e0, e1, -⟩ := idx_facts t
  unfold cdblk iblk1
  rw [View.read_apply]
  show V c main_arg2 _ = V c main_arg2 _
  congr 1
  funext a
  apply Fin.ext
  match a with
  | ⟨0, _⟩ => show win1_1.index t (0 : Fin 2) * 1024 + 1 * n'.val = N.val; rw [e0, hN]; omega
  | ⟨1, _⟩ => show win1_1.index t (1 : Fin 2) * 20 + 1 * k.val = k.val; rw [e1]; omega

/-- Row n' of the weights' block at point t is row 1024 (t % 8) + n' of the decoder weights. -/
theorem adblk_apply (c : Dev nD) (t : Fin cfg1.N) (n' : Fin 1024) (f : Fin 784) (N : Fin 8192)
    (hN : N.val = 1024 * (t.val % 8) + n'.val) : adblk V c t (ix2 n' f) = adarr V c (ix2 N f) := by
  obtain ⟨-, -, -, -, e0, e1, -⟩ := idx_facts t
  unfold adblk iblk1
  rw [View.read_apply]
  show V c main_arg4 _ = V c main_arg4 _
  congr 1
  funext a
  apply Fin.ext
  match a with
  | ⟨0, _⟩ => show win1_2.index t (0 : Fin 2) * 1024 + 1 * n'.val = N.val; rw [e0, hN]; omega
  | ⟨1, _⟩ => show win1_2.index t (1 : Fin 2) * 784 + 1 * f.val = f.val; rw [e1]; omega

/-- The decoder's terms of output entry (R, f), as a function of the centre. -/
abbrev terms (c : Dev nD) (R : Fin 8192) (f : Fin 784) : Fin 8192 → EReal :=
  fun n => Cert.Rbf.decTerm (M := 8192) (N := 8192) (d := 20) (D := 784) (zarr V c) (cdarr V c) (adarr V c) R f n

/-- A term of the blocks at point t is the arrays' term at the shifted row and centre. -/
theorem term_block (c : Dev nD) (t : Fin cfg1.N) (r' : Fin 512) (f : Fin 784) (n' : Fin 1024) (R N : Fin 8192)
    (hR : R.val = 512 * (t.val / 8) + r'.val) (hN : N.val = 1024 * (t.val % 8) + n'.val) :
    Cert.Rbf.decTerm (M := 512) (N := 1024) (d := 20) (D := 784) (zblk V c t) (cdblk V c t) (adblk V c t) r' f n'
      = terms V c R f N := by
  unfold terms Cert.Rbf.decTerm
  rw [Cert.Rbf.gauss_block (zarr V c) (zblk V c t) (cdarr V c) (cdblk V c t) R r' N n'
      (fun k => zblk_apply V c t r' k R hR) (fun k => cdblk_apply V c t n' k N hN),
    adblk_apply V c t n' f N hN]

/-- The 1024 terms of the blocks at point t are the arrays' next 1024 terms past the bound 1024 (t % 8). -/
theorem block_sum (c : Dev nD) (t : Fin cfg1.N) (r' : Fin 512) (f : Fin 784) (R : Fin 8192)
    (hR : R.val = 512 * (t.val / 8) + r'.val) :
    ∑ n' : Fin 1024, Cert.Rbf.decTerm (M := 512) (N := 1024) (d := 20) (D := 784) (zblk V c t) (cdblk V c t) (adblk V c t) r' f n'
      = ∑ b : Fin 1024, terms V c R f ⟨1024 * (t.val % 8) + b.val, by have := b.isLt; omega⟩ :=
  Finset.sum_congr rfl fun n' _ =>
    term_block V c t r' f n' R ⟨1024 * (t.val % 8) + n'.val, by have := n'.isLt; omega⟩ hR rfl

/-- Moving the bound of a cut sum over the 8192 centres from 1024 k to 1024 (k + 1) adds centre block k. -/
theorem psum_block (g : Fin 8192 → EReal) (k : ℕ) (hk : k < 8) :
    Cert.Rbf.psum g (1024 * (k + 1))
      = Cert.Rbf.psum g (1024 * k) + ∑ b : Fin 1024, g ⟨1024 * k + b.val, by have := b.isLt; omega⟩ := by
  rw [show 1024 * (k + 1) = 1024 * k + 1024 from by omega]
  exact Cert.Rbf.psum_add g (1024 * k) 1024 (by omega)

/-- At a point of the first centre block the body resets: the buffer holds zero plus that block's terms. -/
theorem outsAt_reset (c : Dev nD) (t : Fin cfg1.N) (h0 : t.val % 8 = 0) (r' : Fin 512) (f : Fin 784) (R : Fin 8192)
    (hR : R.val = 512 * (t.val / 8) + r'.val) :
    outsAt1 V c t.val t.isLt (ix2 r' f) = Cert.Rbf.zero + Cert.Rbf.psum (terms V c R f) (1024 * (t.val % 8 + 1)) := by
  have hz : Cert.Rbf.psum (terms V c R f) (1024 * (t.val % 8)) = 0 := by rw [h0]; exact Cert.Rbf.psum_zero _
  rw [outsAt1_A V c t h0,
    Cert.KernelIdeal.DecBody.out_A c (grid1.coords t) (ms1_0 t) (hs1_0 t) (ms1_1 t) (hs1_1 t) (ms1_2 t) (hs1_2 t) (ms1_3 t) (hs1_3 t)
      ((hcond1_0 t).mpr h0) (zblk V c t) (cdblk V c t) (adblk V c t) r' f,
    block_sum V c t r' f R hR]
  exact congrArg (Cert.Rbf.zero + ·) (by rw [psum_block (terms V c R f) (t.val % 8) (by omega), hz, zero_add])

/-- At a point of a later centre block the body adds that block's terms to what the point before left. -/
theorem outsAt_step (c : Dev nD) (t : Fin cfg1.N) (h0 : ¬t.val % 8 = 0) (r' : Fin 512) (f : Fin 784) (R : Fin 8192)
    (hR : R.val = 512 * (t.val / 8) + r'.val)
    (hprev : outsAt1 V c (t.val - 1) (Nat.lt_of_le_of_lt (Nat.sub_le _ _) t.isLt) (ix2 r' f)
      = Cert.Rbf.zero + Cert.Rbf.psum (terms V c R f) (1024 * (t.val % 8))) :
    outsAt1 V c t.val t.isLt (ix2 r' f) = Cert.Rbf.zero + Cert.Rbf.psum (terms V c R f) (1024 * (t.val % 8 + 1)) := by
  rw [outsAt1_B V c t h0]
  rw [Cert.KernelIdeal.DecBody.out_B c (grid1.coords t) (ms1_0 t) (hs1_0 t) (ms1_1 t) (hs1_1 t) (ms1_2 t) (hs1_2 t) (ms1_3 t) (hs1_3 t)
      (fun h => h0 ((hcond1_0 t).mp h)) (zblk V c t) (cdblk V c t) (adblk V c t)
      (outsAt1 V c (t.val - 1) (Nat.lt_of_le_of_lt (Nat.sub_le _ _) t.isLt)) r' f,
    block_sum V c t r' f R hR, hprev, add_assoc]
  exact congrArg (Cert.Rbf.zero + ·) (by rw [psum_block (terms V c R f) (t.val % 8) (by omega)])

/-- THE INVARIANT. After point n the output's staging buffer holds, at row r' and feature f, zero plus the terms of
    the array's row 512 (n / 8) + r' over the centres below 1024 (n % 8 + 1): the centre blocks the row block has met
    so far. By induction on the point. -/
theorem outsAt_eq (c : Dev nD) : ∀ (n : ℕ) (hn : n < cfg1.N) (r' : Fin 512) (f : Fin 784) (R : Fin 8192),
    R.val = 512 * (n / 8) + r'.val →
    outsAt1 V c n hn (ix2 r' f) = Cert.Rbf.zero + Cert.Rbf.psum (terms V c R f) (1024 * (n % 8 + 1))
  | 0, hn, r', f, R, hR => outsAt_reset V c ⟨0, hn⟩ (Nat.zero_mod 8) r' f R hR
  | n + 1, hn, r', f, R, hR => by
    by_cases h0 : (n + 1) % 8 = 0
    · exact outsAt_reset V c ⟨n + 1, hn⟩ h0 r' f R hR
    · refine outsAt_step V c ⟨n + 1, hn⟩ h0 r' f R hR ?_
      show outsAt1 V c n (Nat.lt_of_succ_lt hn) (ix2 r' f) = Cert.Rbf.zero + Cert.Rbf.psum (terms V c R f) (1024 * ((n + 1) % 8))
      rw [outsAt_eq c n (Nat.lt_of_succ_lt hn) r' f R (by rw [hR]; omega)]
      exact congrArg (fun L => Cert.Rbf.zero + Cert.Rbf.psum (terms V c R f) (1024 * L)) (by omega)

/-- Every point of the grid is below 128. -/
theorem point_lt (t : Fin cfg1.N) : t.val < 128 := lt_of_lt_of_eq t.isLt (show cfg1.N = 128 from N_1)

/-- What a flushing point (the eighth centre block of its row block) writes back is its block of the decoder's map:
    there the bound of the cut sum is 8192, so the sum is over all the centres. -/
theorem flushed_eq (c : Dev nD) (t : Fin cfg1.N) (hf : (cfg1.win 3).flush t = true) :
    (dat1 (F := Ideal) V c).flushed 3 t
      = ((cfg1.win 3).blk t).view.read (Elt Ideal)
          (Cert.Rbf.dec (M := 8192) (N := 8192) (d := 20) (D := 784) (zarr V c) (cdarr V c) (adarr V c)) := by
  have h7 : t.val % 8 = 7 := (flush1_3 t).mp hf
  have hlt : t.val < 128 := point_lt t
  obtain ⟨-, -, -, -, -, -, e0, e1⟩ := idx_facts t
  show (cfg1.win 3).cut (grid1.coords t) ((dat1 V c).after 3 t) = _
  rw [after1_3]
  funext j
  obtain ⟨r', f, rfl⟩ : ∃ (r' : Fin 512) (f : Fin 784), j = ix2 r' f := ⟨j 0, j 1, eq_ix2 j⟩
  have hemb : ((cfg1.win 3).blk t).view.emb (ix2 r' f)
      = (ix2 (⟨512 * (t.val / 8) + r'.val, by have := r'.isLt; omega⟩ : Fin 8192) f : (⟨2, ![8192, 784]⟩ : Shape).Idx) :=
    funext fun a => Fin.ext (by
      match a with
      | ⟨0, _⟩ => show win1_3.index t (0 : Fin 2) * 512 + 1 * r'.val = 512 * (t.val / 8) + r'.val; rw [e0]; omega
      | ⟨1, _⟩ => show win1_3.index t (1 : Fin 2) * 784 + 1 * f.val = f.val; rw [e1]; omega)
  show outsAt1 V c t.val t.isLt (ix2 r' f)
    = Cert.Rbf.dec (zarr V c) (cdarr V c) (adarr V c) (((cfg1.win 3).blk t).view.emb (ix2 r' f))
  rw [hemb, Cert.Rbf.dec_apply,
    outsAt_eq V c t.val t.isLt r' f ⟨512 * (t.val / 8) + r'.val, by have := r'.isLt; omega⟩ rfl,
    show 1024 * (t.val % 8 + 1) = 8192 from by omega, Cert.Rbf.psum_full, Cert.Rbf.zero_add']

/-- Every row of the result array lies in the block of the flushing point of its row block, point 8 (row / 512) + 7. -/
theorem cover (c : Dev nD) (i : (⟨2, ![8192, 784]⟩ : Shape).Idx) :
    ∃ t : Fin cfg1.N, (cfg1.win 3).flush t = true ∧ i ∈ ((cfg1.win 3).blk t).view.set := by
  have hi0 : (i 0).val < 8192 := idx2_lt0 i
  have hi1 : (i 1).val < 784 := idx2_lt1 i
  let t : Fin cfg1.N := ⟨8 * ((i 0).val / 512) + 7, by show _ < grid1.N; rw [N_1]; omega⟩
  have ht : t.val = 8 * ((i 0).val / 512) + 7 := rfl
  obtain ⟨-, -, -, -, -, -, e0, e1⟩ := idx_facts t
  refine ⟨t, (flush1_3 t).mpr (by rw [ht]; omega), ?_⟩
  show i ∈ ((View.whole main_v1).slice (win1_3.rect t)).set
  rw [View.set_slice_whole, Rect.mem_set_unit]
  intro a
  match a with
  | ⟨0, _⟩ =>
    show win1_3.index t (0 : Fin 2) * 512 ≤ (i 0).val ∧ (i 0).val < win1_3.index t (0 : Fin 2) * 512 + 512
    rw [e0, ht]; omega
  | ⟨1, _⟩ =>
    show win1_3.index t (1 : Fin 2) * 784 ≤ (i 1).val ∧ (i 1).val < win1_3.index t (1 : Fin 2) * 784 + 784
    rw [e1]; omega

/-- The decoder's result array after its whole grid is the decoder's map of the three operand arrays as the region
    finds them: every flushing point writes its block of that map, and the flushing points' blocks cover the array. -/
theorem final (c : Dev nD) :
    (dat1 (F := Ideal) V c).arrAt 3 cfg1.N
      = Cert.Rbf.dec (M := 8192) (N := 8192) (d := 20) (D := 784) (V c main_v0) (V c main_arg2) (V c main_arg4) :=
  (dat1 (F := Ideal) V c).arrAt_eq_of_cover 3 _ (flushed_eq V c) (cover c)

end Cert.KernelIdeal.DecValue

end
-- ==== Proof.RefValue.lean ====
/-
  The reference program computes the decoder after the encoder of the Gaussian kernel map.

  Each of its two Gram matrices is built by the expansion |a|² + |b|² - 2⟨a, b⟩ of the squared distance: the two squared
  norms are row sums started from the zero word, broadcast along the other axis and added; the inner products are one
  contraction over the coordinates against the transposed centres; the difference is clamped below at zero, negated,
  divided by two and exponentiated. Read at row r and centre n, every broadcast and transpose only renames the index, so
  the entry is the sum over the coordinates that the specification calls gauss, once "negate, then divide by two" is
  recognised as "times -1/2" and the zero the sums start from is dropped.

  The encoder's result is then the contraction of that Gram matrix over the centres with the transposed weights, which
  is the specification's enc entry by entry. The decoder's stages see the encoder's result only as an array: its Gram
  entry is gauss of that array and the decoder centres, and the last contraction over the centres is dec.
-/
import proofs.«172889_j29918742184170_1_alg».proof.Proof.Gen.ReferenceIdeal.Read
import proofs.«172889_j29918742184170_1_alg».proof.Proof.Consts

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx

/-- The encoder's Gram entry at row r and centre n. -/
theorem gram_enc (x0 x1 : FVec Ideal S8192x784 .f32) (r n : Fin 8192) :
    val_main_v19 (F := Ideal) x0 x1 (ix2 r n) = Cert.Rbf.gauss (M := 8192) (N := 8192) (d := 784) x0 x1 r n := by
  have e1 : ∀ k : Fin 784, idx_main_v1 (idx_main_v2 (idx_main_v6 (ix2 r n))) k = ix2 r k := fun k =>
    funext fun a => Fin.ext (by match a with | ⟨0, _⟩ => rfl | ⟨1, _⟩ => rfl)
  have e4 : ∀ k : Fin 784, idx_main_v4 (idx_main_v5 (idx_main_v7 (ix2 r n))) k = ix2 n k := fun k =>
    funext fun a => Fin.ext (by match a with | ⟨0, _⟩ => rfl | ⟨1, _⟩ => rfl)
  have el : ∀ k : Fin 784, lidx_main_v10 (ix2 r n) k = ix2 r k := fun k =>
    funext fun a => Fin.ext (by match a with | ⟨0, _⟩ => rfl | ⟨1, _⟩ => rfl)
  have er : ∀ k : Fin 784, idx_main_v9 (ridx_main_v10 (ix2 r n) k) = ix2 n k := fun k =>
    funext fun a => Fin.ext (by match a with | ⟨0, _⟩ => rfl | ⟨1, _⟩ => rfl)
  rw [val_main_v19_apply, val_main_v18_apply, val_main_v16_apply, val_main_v17_apply, val_main_cst_3_apply,
    val_main_v15_apply, val_main_v13_apply, val_main_v14_apply, val_main_cst_2_apply, val_main_v8_apply,
    val_main_v12_apply, val_main_v6_apply, val_main_v7_apply, val_main_v2_apply, val_main_v5_apply,
    val_main_v1_apply, val_main_v4_apply, val_main_v11_apply, val_main_cst_1_apply, val_main_v10_apply,
    val_main_cst_apply, val_main_cst_0_apply]
  simp only [val_main_v0_apply, val_main_v3_apply, val_main_v9_apply, e1, e4, el, er]
  simp only [Ideal.hostUnary_exp_def, Ideal.hostDivf_def, Ideal.hostNegf_def, Ideal.negf_def, Ideal.maximumf_def,
    Ideal.subf_def, Ideal.addf_def, Ideal.mulf_def, Ideal.ofBits_def]
  rw [Cert.Rbf.neg_div_two, Cert.Rbf.zero_add', Cert.Rbf.zero_add']
  unfold Cert.Rbf.gauss Cert.Rbf.sqn Cert.Rbf.cross
  rfl

theorem enc_eq (x0 x1 : FVec Ideal S8192x784 .f32) (x3 : FVec Ideal S20x8192 .f32) :
    val_main_v21 (F := Ideal) x0 x1 x3 = Cert.Rbf.enc (M := 8192) (N := 8192) (d := 784) (L := 20) x0 x1 x3 := by
  funext i
  obtain ⟨r, l, rfl⟩ : ∃ (r : Fin 8192) (l : Fin 20), i = ix2 r l := ⟨i 0, i 1, eq_ix2 i⟩
  have el : ∀ k : Fin 8192, lidx_main_v21 (ix2 r l) k = ix2 r k := fun k =>
    funext fun a => Fin.ext (by match a with | ⟨0, _⟩ => rfl | ⟨1, _⟩ => rfl)
  have er : ∀ k : Fin 8192, idx_main_v20 (ridx_main_v21 (ix2 r l) k) = ix2 l k := fun k =>
    funext fun a => Fin.ext (by match a with | ⟨0, _⟩ => rfl | ⟨1, _⟩ => rfl)
  rw [val_main_v21_apply, Cert.Rbf.enc_apply]
  refine Finset.sum_congr rfl fun k _ => ?_
  rw [el k, gram_enc, val_main_v20_apply, er k]
  rfl

/-- The decoder's Gram entry at row r and centre n, the encoder's result entering only as an array. -/
theorem gram_dec (x0 x1 : FVec Ideal S8192x784 .f32) (x2 : FVec Ideal S8192x20 .f32) (x3 : FVec Ideal S20x8192 .f32)
    (r n : Fin 8192) :
    val_main_v41 (F := Ideal) x0 x1 x2 x3 (ix2 r n)
      = Cert.Rbf.gauss (M := 8192) (N := 8192) (d := 20) (val_main_v21 (F := Ideal) x0 x1 x3) x2 r n := by
  have e1 : ∀ k : Fin 20, idx_main_v23 (idx_main_v24 (idx_main_v28 (ix2 r n))) k = ix2 r k := fun k =>
    funext fun a => Fin.ext (by match a with | ⟨0, _⟩ => rfl | ⟨1, _⟩ => rfl)
  have e4 : ∀ k : Fin 20, idx_main_v26 (idx_main_v27 (idx_main_v29 (ix2 r n))) k = ix2 n k := fun k =>
    funext fun a => Fin.ext (by match a with | ⟨0, _⟩ => rfl | ⟨1, _⟩ => rfl)
  have el : ∀ k : Fin 20, lidx_main_v32 (ix2 r n) k = ix2 r k := fun k =>
    funext fun a => Fin.ext (by match a with | ⟨0, _⟩ => rfl | ⟨1, _⟩ => rfl)
  have er : ∀ k : Fin 20, idx_main_v31 (ridx_main_v32 (ix2 r n) k) = ix2 n k := fun k =>
    funext fun a => Fin.ext (by match a with | ⟨0, _⟩ => rfl | ⟨1, _⟩ => rfl)
  rw [val_main_v41_apply, val_main_v40_apply, val_main_v38_apply, val_main_v39_apply, val_main_cst_8_apply,
    val_main_v37_apply, val_main_v35_apply, val_main_v36_apply, val_main_cst_7_apply, val_main_v30_apply,
    val_main_v34_apply, val_main_v28_apply, val_main_v29_apply, val_main_v24_apply, val_main_v27_apply,
    val_main_v23_apply, val_main_v26_apply, val_main_v33_apply, val_main_cst_6_apply, val_main_v32_apply,
    val_main_cst_4_apply, val_main_cst_5_apply]
  simp only [val_main_v22_apply, val_main_v25_apply, val_main_v31_apply, e1, e4, el, er]
  simp only [Ideal.hostUnary_exp_def, Ideal.hostDivf_def, Ideal.hostNegf_def, Ideal.negf_def, Ideal.maximumf_def,
    Ideal.subf_def, Ideal.addf_def, Ideal.mulf_def, Ideal.ofBits_def]
  rw [Cert.Rbf.neg_div_two, Cert.Rbf.zero_add', Cert.Rbf.zero_add']
  unfold Cert.Rbf.gauss Cert.Rbf.sqn Cert.Rbf.cross
  rfl

theorem ref_eq (x0 x1 : FVec Ideal S8192x784 .f32) (x2 : FVec Ideal S8192x20 .f32) (x3 : FVec Ideal S20x8192 .f32) (x4 : FVec Ideal S8192x784 .f32) :
    val_main_v42 (F := Ideal) x0 x1 x2 x3 x4
      = Cert.Rbf.dec (M := 8192) (N := 8192) (d := 20) (D := 784) (Cert.Rbf.enc (M := 8192) (N := 8192) (d := 784) (L := 20) x0 x1 x3) x2 x4 := by
  rw [← enc_eq x0 x1 x3]
  funext i
  obtain ⟨r, f, rfl⟩ : ∃ (r : Fin 8192) (f : Fin 784), i = ix2 r f := ⟨i 0, i 1, eq_ix2 i⟩
  have el : ∀ k : Fin 8192, lidx_main_v42 (ix2 r f) k = ix2 r k := fun k =>
    funext fun a => Fin.ext (by match a with | ⟨0, _⟩ => rfl | ⟨1, _⟩ => rfl)
  have er : ∀ k : Fin 8192, ridx_main_v42 (ix2 r f) k = ix2 k f := fun k =>
    funext fun a => Fin.ext (by match a with | ⟨0, _⟩ => rfl | ⟨1, _⟩ => rfl)
  rw [val_main_v42_apply, Cert.Rbf.dec_apply]
  refine Finset.sum_congr rfl fun k _ => ?_
  rw [el k, gram_dec, er k]
  rfl

end Cert.ReferenceIdeal.RefValue

end
-- ==== Proof.lean ====
/-
  The kernel is a two-stage radial-basis autoencoder: an encoder z = K(x, centres_enc) · alpha_encᵀ and a decoder
  out = K(z, centres_dec) · alpha_dec, where K(a, b)[r, n] = exp(-|a_r - b_n|² / 2) is computed by the expansion
  |a_r|² + |b_n|² - 2⟨a_r, b_n⟩ clamped below at 0. Each stage is one grid of 16 row blocks by 8 blocks of 1024
  centres: at the first centre block the output block is reset to zero, and every centre block adds its 1024 terms, so
  after the eighth the block holds the whole sum over the 8192 centres. The reference computes the two Gram matrices
  whole and multiplies.

  Over the extended reals the two are one function (Proof/Spec.lean): a sum over 8192 centres is the sum of its eight
  consecutive blocks starting from zero; the change of float format before each matrix product is the identity; and the
  reference's exponent -s / 2 is the kernel's s · (-1/2) (Proof/Consts.lean). No step needs the inputs finite.

  The pieces: Proof/EncValue.lean and Proof/DecValue.lean read each stage's result array off its grid run;
  Proof/Launch.lean is the program's run with the result array named; Proof/RefValue.lean reads the reference's
  operations as the same two maps. Here they are put together.
-/
import proofs.«172889_j29918742184170_1_alg».proof.Defs
import proofs.«172889_j29918742184170_1_alg».proof.Proof.Gen.Kernel
import proofs.«172889_j29918742184170_1_alg».proof.Proof.Gen.Kernel.Frame
import proofs.«172889_j29918742184170_1_alg».proof.Proof.Gen.KernelIdeal
import proofs.«172889_j29918742184170_1_alg».proof.Proof.Gen.KernelIdeal.Frame
import proofs.«172889_j29918742184170_1_alg».proof.Proof.Gen.ReferenceIdeal
import proofs.«172889_j29918742184170_1_alg».proof.Proof.Gen.ReferenceIdeal.Read
import proofs.«172889_j29918742184170_1_alg».proof.Proof.Gen.Pre_finite_inputs
import proofs.«172889_j29918742184170_1_alg».proof.Proof.Launch
import proofs.«172889_j29918742184170_1_alg».proof.Proof.EncValue
import proofs.«172889_j29918742184170_1_alg».proof.Proof.DecValue
import proofs.«172889_j29918742184170_1_alg».proof.Proof.RefValue
import Idealize.ShloMosaic.Adequacy
import Idealize.ShloMosaic.Init

noncomputable section

namespace Cert.Proof

open Idealize.ShloMosaic Idealize.ShloMosaic.TcCoe Idealize.SL.Sem

/-- The whole map of the argument arrays on core c: the decoder after the encoder. -/
abbrev result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v1) :=
  Cert.Rbf.dec (M := 8192) (N := 8192) (d := 20) (D := 784)
    (Cert.Rbf.enc (M := 8192) (N := 8192) (d := 784) (L := 20)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg4))

/-- What the kernel's result array holds after the run: the decoder's write-backs over what the encoder's left, each
    stage's other operands as launched. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W2 m ρ c (Proc.devRef .tc Cert.KernelIdeal.main_v1) = result m c := by
  refine (Cert.KernelIdeal.Launch.W2_main_v1 m ρ c).trans ?_
  refine (Cert.KernelIdeal.DecValue.final (Cert.KernelIdeal.Gen.V1 m ρ) c).trans ?_
  rw [Cert.KernelIdeal.Launch.V1_main_v0 m ρ c, Cert.KernelIdeal.EncValue.final (Cert.KernelIdeal.Gen.V0 m ρ) c,
    Cert.KernelIdeal.Launch.V1_main_arg2 m ρ c, Cert.KernelIdeal.Launch.V1_main_arg4 m ρ c]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the decoder after the encoder of the (agreeing) argument arrays. -/
theorem algebraic : Cert.algebraic_KernelIdeal_ReferenceIdeal := by
  intro m ρ m' ρ' _ hagree
  refine ⟨fun c => result m c, ?_, ?_⟩
  · exact (θ_run Cert.KernelIdeal.defs _ _).mono (fun _ h c => ⟨(h c).1.trans (kernel_value m ρ c), (h c).2⟩)
      (Cert.KernelIdeal.Launch.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v42_eq, Cert.ReferenceIdeal.RefValue.ref_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
